-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x250000 : Shape := ⟨2, ![2, 250000]⟩
abbrev S250000x200 : Shape := ⟨2, ![250000, 200]⟩
abbrev S250000x64 : Shape := ⟨2, ![250000, 64]⟩
abbrev S520x520 : Shape := ⟨2, ![520, 520]⟩
abbrev S520 : Shape := ⟨1, ![520]⟩
abbrev S520x8 : Shape := ⟨2, ![520, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S250000x200 : S_.BroadcastsInDim S250000x200 (![] : Fin 0 → Fin S250000x200.rank)
  reducesTo_S250000x200_S_d0_1 : S250000x200.ReducesTo [0, 1] S_
  bcast_S_S250000x64 : S_.BroadcastsInDim S250000x64 (![] : Fin 0 → Fin S250000x64.rank)
  reducesTo_S250000x64_S_d0_1 : S250000x64.ReducesTo [0, 1] S_
  bcast_S_S520x520 : S_.BroadcastsInDim S520x520 (![] : Fin 0 → Fin S520x520.rank)
  reducesTo_S520x520_S_d0_1 : S520x520.ReducesTo [0, 1] S_
  bcast_S_S520 : S_.BroadcastsInDim S520 (![] : Fin 0 → Fin S520.rank)
  reducesTo_S520_S_d0 : S520.ReducesTo [0] S_
  bcast_S_S520x8 : S_.BroadcastsInDim S520x8 (![] : Fin 0 → Fin S520x8.rank)
  reducesTo_S520x8_S_d0_1 : S520x8.ReducesTo [0, 1] S_
  bcast_S_S8 : S_.BroadcastsInDim S8 (![] : Fin 0 → Fin S8.rank)
  reducesTo_S8_S_d0 : S8.ReducesTo [0] S_
  bcast_S_S2x250000 : S_.BroadcastsInDim S2x250000 (![] : Fin 0 → Fin S2x250000.rank)
  reducesTo_S2x250000_S_d0_1 : S2x250000.ReducesTo [0, 1] S_

variable [Facts]

def fn_part2 {F : FTy → Type} [FloatOps F] (main_arg1 : IVec S2x250000 32) (main_arg8 : FVec F S520x8 .f32) (main_arg9 : FVec F S8 .f32) (main_v33 : IVec S_ 1) : IVec S_ 1 :=
  let main_v34 : FVec F S520x8 .f32 := Host.absf main_arg8
  let main_cst_12 : FVec F S_ .f32 := constant S_ .f32 0x7F800000#32
  let main_v35 : FVec F S520x8 .f32 := broadcastInDim S520x8 ![] bcast_S_S520x8 main_cst_12
  let main_v36 : IVec S520x8 1 := cmpf .olt main_v34 main_v35
  let main_c_13 : IVec S_ 1 := constantI S_ 1 1#1
  let main_v37 : IVec S_ 1 := (fun x v => Host.reduce IntOp.andi x v reducesTo_S520x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S2x250000 32 := broadcastInDim S2x250000 ![] bcast_S_S2x250000 main_c_16
  let main_v45 : IVec S2x250000 1 := cmpi .sge main_arg1 main_v44
  let main_c_17 : IVec S_ 32 := constantI S_ 32 50000#32
  let main_v46 : IVec S2x250000 32 := broadcastInDim S2x250000 ![] bcast_S_S2x250000 main_c_17
  let main_v47 : IVec S2x250000 1 := cmpi .slt main_arg1 main_v46
  let main_v48 : IVec S2x250000 1 := andi main_v45 main_v47
  let main_c_18 : IVec S_ 1 := constantI S_ 1 1#1
  let main_v49 : IVec S_ 1 := (fun x v => Host.reduce IntOp.andi x v reducesTo_S2x250000_S_d0_1 h_S_) main_v48 main_c_18
  let main_v50 : IVec S_ 1 := andi main_v43 main_v49
  main_v50

def fn_part1 {F : FTy → Type} [FloatOps F] (main_arg1 : IVec S2x250000 32) (main_arg5 : FVec F S520 .f32) (main_arg6 : FVec F S520x520 .f32) (main_arg7 : FVec F S520 .f32) (main_arg8 : FVec F S520x8 .f32) (main_arg9 : FVec F S8 .f32) (main_v13 : IVec S_ 1) (main_v16 : IVec S520x520 1) : IVec S_ 1 :=
  let main_c_5 : IVec S_ 1 := constantI S_ 1 1#1
  let main_v17 : IVec S_ 1 := (fun x v => Host.reduce IntOp.andi x v reducesTo_S520x520_S_d0_1 h_S_) main_v16 main_c_5
  let main_v18 : IVec S_ 1 := andi main_v13 main_v17
  let main_v19 : FVec F S520 .f32 := Host.absf main_arg5
  let main_cst_6 : FVec F S_ .f32 := constant S_ .f32 0x7F800000#32
  let main_v20 : FVec F S520 .f32 := broadcastInDim S520 ![] bcast_S_S520 main_cst_6
  let main_v21 : IVec S520 1 := cmpf .olt main_v19 main_v20
  let main_c_7 : IVec S_ 1 := constantI S_ 1 1#1
  let main_v22 : IVec S_ 1 := (fun x v => Host.reduce IntOp.andi x v reducesTo_S520_S_d0 h_S_) main_v21 main_c_7
  let main_v23 : IVec S_ 1 := andi main_v18 main_v22
  let main_v24 : FVec F S520x520 .f32 := Host.absf main_arg6
  let main_cst_8 : FVec F S_ .f32 := constant S_ .f32 0x7F800000#32
  let main_v25 : FVec F S520x520 .f32 := broadcastInDim S520x520 ![] bcast_S_S520x520 main_cst_8
  let main_v26 : IVec S520x520 1 := cmpf .olt main_v24 main_v25
  let main_c_9 : IVec S_ 1 := constantI S_ 1 1#1
  let main_v27 : IVec S_ 1 := (fun x v => Host.reduce IntOp.andi x v reducesTo_S520x520_S_d0_1 h_S_) main_v26 main_c_9
  let main_v28 : IVec S_ 1 := andi main_v23 main_v27
  let main_v29 : FVec F S520 .f32 := Host.absf main_arg7
  let main_cst_10 : FVec F S_ .f32 := constant S_ .f32 0x7F800000#32
  let main_v30 : FVec F S520 .f32 := broadcastInDim S520 ![] bcast_S_S520 main_cst_10
  let main_v31 : IVec S520 1 := cmpf .olt main_v29 main_v30
  let main_c_11 : IVec S_ 1 := constantI S_ 1 1#1
  let main_v32 : IVec S_ 1 := (fun x v => Host.reduce IntOp.andi x v reducesTo_S520_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x250000 32) (main_arg2 : FVec F S250000x200 .f32) (main_arg3 : FVec F S250000x64 .f32) (main_arg4 : FVec F S520x520 .f32) (main_arg5 : FVec F S520 .f32) (main_arg6 : FVec F S520x520 .f32) (main_arg7 : FVec F S520 .f32) (main_arg8 : FVec F S520x8 .f32) (main_arg9 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S250000x200 .f32 := Host.absf main_arg2
  let main_cst_0 : FVec F S_ .f32 := constant S_ .f32 0x7F800000#32
  let main_v5 : FVec F S250000x200 .f32 := broadcastInDim S250000x200 ![] bcast_S_S250000x200 main_cst_0
  let main_v6 : IVec S250000x200 1 := cmpf .olt main_v4 main_v5
  let main_c_1 : IVec S_ 1 := constantI S_ 1 1#1
  let main_v7 : IVec S_ 1 := (fun x v => Host.reduce IntOp.andi x v reducesTo_S250000x200_S_d0_1 h_S_) main_v6 main_c_1
  let main_v8 : IVec S_ 1 := andi main_v3 main_v7
  let main_v9 : FVec F S250000x64 .f32 := Host.absf main_arg3
  let main_cst_2 : FVec F S_ .f32 := constant S_ .f32 0x7F800000#32
  let main_v10 : FVec F S250000x64 .f32 := broadcastInDim S250000x64 ![] bcast_S_S250000x64 main_cst_2
  let main_v11 : IVec S250000x64 1 := cmpf .olt main_v9 main_v10
  let main_c_3 : IVec S_ 1 := constantI S_ 1 1#1
  let main_v12 : IVec S_ 1 := (fun x v => Host.reduce IntOp.andi x v reducesTo_S250000x64_S_d0_1 h_S_) main_v11 main_c_3
  let main_v13 : IVec S_ 1 := andi main_v8 main_v12
  let main_v14 : FVec F S520x520 .f32 := Host.absf main_arg4
  let main_cst_4 : FVec F S_ .f32 := constant S_ .f32 0x7F800000#32
  let main_v15 : FVec F S520x520 .f32 := broadcastInDim S520x520 ![] bcast_S_S520x520 main_cst_4
  let main_v16 : IVec S520x520 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x250000 : Shape := ⟨2, ![2, 250000]⟩
abbrev S250000x200 : Shape := ⟨2, ![250000, 200]⟩
abbrev S250000x64 : Shape := ⟨2, ![250000, 64]⟩
abbrev S520x520 : Shape := ⟨2, ![520, 520]⟩
abbrev S520 : Shape := ⟨1, ![520]⟩
abbrev S520x8 : Shape := ⟨2, ![520, 8]⟩
abbrev S8 : Shape := ⟨1, ![8]⟩
abbrev S1x250000 : Shape := ⟨2, ![1, 250000]⟩
abbrev S250000 : Shape := ⟨1, ![250000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S250000x128 : Shape := ⟨2, ![250000, 128]⟩
abbrev S128x520 : Shape := ⟨2, ![128, 520]⟩
abbrev S200x520 : Shape := ⟨2, ![200, 520]⟩
abbrev S64x520 : Shape := ⟨2, ![64, 520]⟩
abbrev S1x520 : Shape := ⟨2, ![1, 520]⟩
abbrev S1x8 : Shape := ⟨2, ![1, 8]⟩
abbrev S250000x8 : Shape := ⟨2, ![250000, 8]⟩
abbrev S2000x128 : Shape := ⟨2, ![2000, 128]⟩
abbrev S2000x200 : Shape := ⟨2, ![2000, 200]⟩
abbrev S2000x64 : Shape := ⟨2, ![2000, 64]⟩
abbrev S2000x8 : Shape := ⟨2, ![2000, 8]⟩
abbrev S2000x520 : Shape := ⟨2, ![2000, 520]⟩

abbrev nBuf : Space → Nat
  | .hbm => 54
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x250000, .i32⟩
  | .hbm, ⟨2, _⟩ => ⟨S250000x200, .f32⟩
  | .hbm, ⟨3, _⟩ => ⟨S250000x64, .f32⟩
  | .hbm, ⟨4, _⟩ => ⟨S520x520, .f32⟩
  | .hbm, ⟨5, _⟩ => ⟨S520, .f32⟩
  | .hbm, ⟨6, _⟩ => ⟨S520x520, .f32⟩
  | .hbm, ⟨7, _⟩ => ⟨S520, .f32⟩
  | .hbm, ⟨8, _⟩ => ⟨S520x8, .f32⟩
  | .hbm, ⟨9, _⟩ => ⟨S8, .f32⟩
  | .hbm, ⟨10, _⟩ => ⟨S1x250000, .i32⟩
  | .hbm, ⟨11, _⟩ => ⟨S250000, .i32⟩
  | .hbm, ⟨12, _⟩ => ⟨S1x250000, .i32⟩
  | .hbm, ⟨13, _⟩ => ⟨S250000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S1, .i32⟩
  | .hbm, ⟨24, _⟩ => ⟨S_, .i32⟩
  | .hbm, ⟨25, _⟩ => ⟨S500000x1, .i32⟩
  | .hbm, ⟨26, _⟩ => ⟨S500000x1, .i1⟩
  | .hbm, ⟨27, _⟩ => ⟨S1x1, .i32⟩
  | .hbm, ⟨28, _⟩ => ⟨S500000x1, .i32⟩
  | .hbm, ⟨29, _⟩ => ⟨S500000x1, .i1⟩
  | .hbm, ⟨30, _⟩ => ⟨S500000x1, .i1⟩
  | .hbm, ⟨31, _⟩ => ⟨S_, .i1⟩
  | .hbm, ⟨32, _⟩ => ⟨S500000, .i1⟩
  | .hbm, ⟨33, _⟩ => ⟨S500000x128, .f32⟩
  | .hbm, ⟨34, _⟩ => ⟨S500000x128, .i1⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S250000x128, .f32⟩
  | .hbm, ⟨39, _⟩ => ⟨S250000x128, .f32⟩
  | .hbm, ⟨40, _⟩ => ⟨S128x520, .f32⟩
  | .hbm, ⟨41, _⟩ => ⟨S128x520, .f32⟩
  | .hbm, ⟨42, _⟩ => ⟨S200x520, .f32⟩
  | .hbm, ⟨43, _⟩ => ⟨S64x520, .f32⟩
  | .hbm, ⟨44, _⟩ => ⟨S128x520, .bf16⟩
  | .hbm, ⟨45, _⟩ => ⟨S128x520, .bf16⟩
  | .hbm, ⟨46, _⟩ => ⟨S200x520, .bf16⟩
  | .hbm, ⟨47, _⟩ => ⟨S64x520, .bf16⟩
  | .hbm, ⟨48, _⟩ => ⟨S520x520, .bf16⟩
  | .hbm, ⟨49, _⟩ => ⟨S520x8, .bf16⟩
  | .hbm, ⟨50, _⟩ => ⟨S1x520, .f32⟩
  | .hbm, ⟨51, _⟩ => ⟨S1x520, .f32⟩
  | .hbm, ⟨52, _⟩ => ⟨S1x8, .f32⟩
  | .hbm, ⟨53, _⟩ => ⟨S250000x8, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x200, .f32⟩
  | .local _ .vmem, ⟨5, _⟩ => ⟨S2000x200, .f32⟩
  | .local _ .vmem, ⟨6, _⟩ => ⟨S2000x64, .f32⟩
  | .local _ .vmem, ⟨7, _⟩ => ⟨S2000x64, .f32⟩
  | .local _ .vmem, ⟨8, _⟩ => ⟨S128x520, .bf16⟩
  | .local _ .vmem, ⟨9, _⟩ => ⟨S128x520, .bf16⟩
  | .local _ .vmem, ⟨10, _⟩ => ⟨S200x520, .bf16⟩
  | .local _ .vmem, ⟨11, _⟩ => ⟨S64x520, .bf16⟩
  | .local _ .vmem, ⟨12, _⟩ => ⟨S1x520, .f32⟩
  | .local _ .vmem, ⟨13, _⟩ => ⟨S520x520, .bf16⟩
  | .local _ .vmem, ⟨14, _⟩ => ⟨S1x520, .f32⟩
  | .local _ .vmem, ⟨15, _⟩ => ⟨S520x8, .bf16⟩
  | .local _ .vmem, ⟨16, _⟩ => ⟨S1x8, .f32⟩
  | .local _ .vmem, ⟨17, _⟩ => ⟨S2000x8, .f32⟩
  | .local _ .vmem, ⟨18, _⟩ => ⟨S2000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_call0_c : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_c_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_c_1 : Ref sig .tc := ⟨.hbm, 23, rfl⟩
abbrev main_call0_call0_c_2 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_c_3 : Ref sig .tc := ⟨.hbm, 31, rfl⟩
abbrev main_call0_call0_v12 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst : Ref sig .tc := ⟨.hbm, 35, rfl⟩
abbrev main_call0_call0_v15 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_call0_v17 : Ref sig .tc := ⟨.hbm, 49, rfl⟩
abbrev main_call0_v18 : Ref sig .tc := ⟨.hbm, 50, rfl⟩
abbrev main_call0_v19 : Ref sig .tc := ⟨.hbm, 51, rfl⟩
abbrev main_call0_v20 : Ref sig .tc := ⟨.hbm, 52, rfl⟩
abbrev main_v0 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x520 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x520 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x520 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x520 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x520 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S520x520 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x520 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S520x8 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  concatenates_S250000_S250000_S500000_d0 : Shape.Concatenates [S250000, S250000] S500000 0
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S500000x128_S250000x128_0_0 : S500000x128.Slices ![0, 0] S250000x128
  slices_S500000x128_S250000x128_250000_0 : S500000x128.Slices ![250000, 0] S250000x128
  slices_S520x520_S128x520_0_0 : S520x520.Slices ![0, 0] S128x520
  slices_S520x520_S128x520_128_0 : S520x520.Slices ![128, 0] S128x520
  slices_S520x520_S200x520_256_0 : S520x520.Slices ![256, 0] S200x520
  slices_S520x520_S64x520_456_0 : S520x520.Slices ![456, 0] S64x520
  bitsLt_bf16_f32 : FTy.bits .bf16 < FTy.bits .f32
  shapeCasts_S520_S1x520 : S520.ShapeCasts S1x520
  shapeCasts_S8_S1x8 : S8.ShapeCasts S1x8
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x200_S2000x200_0_0 : ∀ a, (![0, 0] : Fin 2 → Nat) a + S2000x200.size a ≤ S2000x200.size a
  h_S2000x200 : 0 < S2000x200.numel
  inb_S2000x64_S2000x64_0_0 : ∀ a, (![0, 0] : Fin 2 → Nat) a + S2000x64.size a ≤ S2000x64.size a
  h_S2000x64 : 0 < S2000x64.numel
  inb_S128x520_S128x520_0_0 : ∀ a, (![0, 0] : Fin 2 → Nat) a + S128x520.size a ≤ S128x520.size a
  h_S128x520 : 0 < S128x520.numel
  shapeCasts_S128x520_S128x520 : S128x520.ShapeCasts S128x520
  inb_S200x520_S200x520_0_0 : ∀ a, (![0, 0] : Fin 2 → Nat) a + S200x520.size a ≤ S200x520.size a
  h_S200x520 : 0 < S200x520.numel
  shapeCasts_S200x520_S200x520 : S200x520.ShapeCasts S200x520
  inb_S64x520_S64x520_0_0 : ∀ a, (![0, 0] : Fin 2 → Nat) a + S64x520.size a ≤ S64x520.size a
  h_S64x520 : 0 < S64x520.numel
  shapeCasts_S64x520_S64x520 : S64x520.ShapeCasts S64x520
  inb_S1x520_S1x520_0_0 : ∀ a, (![0, 0] : Fin 2 → Nat) a + S1x520.size a ≤ S1x520.size a
  h_S1x520 : 0 < S1x520.numel
  shapeCasts_S1x520_S1x520 : S1x520.ShapeCasts S1x520
  broadcasts_S1x520_S2000x520 : S1x520.Broadcasts S2000x520
  concatenates_S2000x128_S2000x128_S2000x200_S2000x64_S2000x520_d1 : Shape.Concatenates [S2000x128, S2000x128, S2000x200, S2000x64] S2000x520 1
  inb_S520x520_S520x520_0_0 : ∀ a, (![0, 0] : Fin 2 → Nat) a + S520x520.size a ≤ S520x520.size a
  h_S520x520 : 0 < S520x520.numel
  shapeCasts_S520x520_S520x520 : S520x520.ShapeCasts S520x520
  inb_S520x8_S520x8_0_0 : ∀ a, (![0, 0] : Fin 2 → Nat) a + S520x8.size a ≤ S520x8.size a
  h_S520x8 : 0 < S520x8.numel
  shapeCasts_S520x8_S520x8 : S520x8.ShapeCasts S520x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  gather_S50000x128_S500000x1_S500000x128_1_0_n_n_0_1_1128_wf : GatherDims.WF S50000x128 S500000x1 S500000x128 [1] [0] [] [0] [] 1 ![1, 128]
  dot_S2000x128_S128x520_S2000x520_1_0_0_1_n_n_wf : DotDims.WF S2000x128 S128x520 S2000x520 [1] [0] [0] [1] [] []
  dot_S2000x200_S200x520_S2000x520_1_0_0_1_n_n_wf : DotDims.WF S2000x200 S200x520 S2000x520 [1] [0] [0] [1] [] []
  dot_S2000x64_S64x520_S2000x520_1_0_0_1_n_n_wf : DotDims.WF S2000x64 S64x520 S2000x520 [1] [0] [0] [1] [] []
  dot_S2000x520_S520x520_S2000x520_1_0_0_1_n_n_wf : DotDims.WF S2000x520 S520x520 S2000x520 [1] [0] [0] [1] [] []
  dot_S2000x520_S520x8_S2000x8_1_0_0_1_n_n_wf : DotDims.WF S2000x520 S520x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S250000x128.size a
  hwx0_0 : ∀ i : grid0.Coords, EltTy.bits .f32 = 32 ∨ (Rect.block (s := S250000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S250000x128.size a
  hwx0_1 : ∀ i : grid0.Coords, EltTy.bits .f32 = 32 ∨ (Rect.block (s := S250000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x200.size a ≤ S250000x200.size a
  hwx0_2 : ∀ i : grid0.Coords, EltTy.bits .f32 = 32 ∨ (Rect.block (s := S250000x200) S2000x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S250000x64.size a
  hwx0_3 : ∀ i : grid0.Coords, EltTy.bits .f32 = 32 ∨ (Rect.block (s := S250000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x520.size a ≤ S128x520.size a
  hwx0_4 : ∀ i : grid0.Coords, EltTy.bits .bf16 = 32 ∨ (Rect.block (s := S128x520) S128x520.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x520.size a ≤ S128x520.size a
  hwx0_5 : ∀ i : grid0.Coords, EltTy.bits .bf16 = 32 ∨ (Rect.block (s := S128x520) S128x520.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x520.size a ≤ S200x520.size a
  hwx0_6 : ∀ i : grid0.Coords, EltTy.bits .bf16 = 32 ∨ (Rect.block (s := S200x520) S200x520.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x520.size a ≤ S64x520.size a
  hwx0_7 : ∀ i : grid0.Coords, EltTy.bits .bf16 = 32 ∨ (Rect.block (s := S64x520) S64x520.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x520.size a ≤ S1x520.size a
  hwx0_8 : ∀ i : grid0.Coords, EltTy.bits .f32 = 32 ∨ (Rect.block (s := S1x520) S1x520.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S520x520.size a ≤ S520x520.size a
  hwx0_9 : ∀ i : grid0.Coords, EltTy.bits .bf16 = 32 ∨ (Rect.block (s := S520x520) S520x520.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x520.size a ≤ S1x520.size a
  hwx0_10 : ∀ i : grid0.Coords, EltTy.bits .f32 = 32 ∨ (Rect.block (s := S1x520) S1x520.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S520x8.size a ≤ S520x8.size a
  hwx0_11 : ∀ i : grid0.Coords, EltTy.bits .bf16 = 32 ∨ (Rect.block (s := S520x8) S520x8.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x8.size a ≤ S250000x8.size a
  hwx0_13 : ∀ i : grid0.Coords, EltTy.bits .f32 = 32 ∨ (Rect.block (s := S250000x8) S2000x8.size (cc0_transform_13 i) (hinb0_13 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x520_S2000x520_1_0_0_1_n_n : DotDims S2000x128 S128x520 S2000x520 where
  lhsContracting := [1]
  rhsContracting := [0]
  lhsNonContracting := [0]
  rhsNonContracting := [1]
  lhsBatch := []
  rhsBatch := []
  wf := dot_S2000x128_S128x520_S2000x520_1_0_0_1_n_n_wf
def dot_S2000x200_S200x520_S2000x520_1_0_0_1_n_n : DotDims S2000x200 S200x520 S2000x520 where
  lhsContracting := [1]
  rhsContracting := [0]
  lhsNonContracting := [0]
  rhsNonContracting := [1]
  lhsBatch := []
  rhsBatch := []
  wf := dot_S2000x200_S200x520_S2000x520_1_0_0_1_n_n_wf
def dot_S2000x64_S64x520_S2000x520_1_0_0_1_n_n : DotDims S2000x64 S64x520 S2000x520 where
  lhsContracting := [1]
  rhsContracting := [0]
  lhsNonContracting := [0]
  rhsNonContracting := [1]
  lhsBatch := []
  rhsBatch := []
  wf := dot_S2000x64_S64x520_S2000x520_1_0_0_1_n_n_wf
def dot_S2000x520_S520x520_S2000x520_1_0_0_1_n_n : DotDims S2000x520 S520x520 S2000x520 where
  lhsContracting := [1]
  rhsContracting := [0]
  lhsNonContracting := [0]
  rhsNonContracting := [1]
  lhsBatch := []
  rhsBatch := []
  wf := dot_S2000x520_S520x520_S2000x520_1_0_0_1_n_n_wf
def dot_S2000x520_S520x8_S2000x8_1_0_0_1_n_n : DotDims S2000x520 S520x8 S2000x8 where
  lhsContracting := [1]
  rhsContracting := [0]
  lhsNonContracting := [0]
  rhsNonContracting := [1]
  lhsBatch := []
  rhsBatch := []
  wf := dot_S2000x520_S520x8_S2000x8_1_0_0_1_n_n_wf

abbrev win0_0 : Pipeline.Window sig grid0 :=
  Pipeline.Window.ofSpec (Memref.whole main_call0_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S128x520.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13) S128x520.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14) S200x520.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v15) S64x520.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v18) S1x520.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v16) S520x520.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v19) S1x520.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v17) S520x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v20) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S2000x8.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x250000 : Shape := ⟨2, ![2, 250000]⟩
abbrev S250000x200 : Shape := ⟨2, ![250000, 200]⟩
abbrev S250000x64 : Shape := ⟨2, ![250000, 64]⟩
abbrev S520x520 : Shape := ⟨2, ![520, 520]⟩
abbrev S520 : Shape := ⟨1, ![520]⟩
abbrev S520x8 : Shape := ⟨2, ![520, 8]⟩
abbrev S8 : Shape := ⟨1, ![8]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x128 : Shape := ⟨2, ![250000, 128]⟩
abbrev S250000x520 : Shape := ⟨2, ![250000, 520]⟩
abbrev S1x520 : Shape := ⟨2, ![1, 520]⟩
abbrev S250000x8 : Shape := ⟨2, ![250000, 8]⟩
abbrev S1x8 : Shape := ⟨2, ![1, 8]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x250000, .i32⟩
  | .hbm, ⟨2, _⟩ => ⟨S250000x200, .f32⟩
  | .hbm, ⟨3, _⟩ => ⟨S250000x64, .f32⟩
  | .hbm, ⟨4, _⟩ => ⟨S520x520, .f32⟩
  | .hbm, ⟨5, _⟩ => ⟨S520, .f32⟩
  | .hbm, ⟨6, _⟩ => ⟨S520x520, .f32⟩
  | .hbm, ⟨7, _⟩ => ⟨S520, .f32⟩
  | .hbm, ⟨8, _⟩ => ⟨S520x8, .f32⟩
  | .hbm, ⟨9, _⟩ => ⟨S8, .f32⟩
  | .hbm, ⟨10, _⟩ => ⟨S1x250000, .i32⟩
  | .hbm, ⟨11, _⟩ => ⟨S250000, .i32⟩
  | .hbm, ⟨12, _⟩ => ⟨S1x250000, .i32⟩
  | .hbm, ⟨13, _⟩ => ⟨S250000, .i32⟩
  | .hbm, ⟨14, _⟩ => ⟨S_, .i32⟩
  | .hbm, ⟨15, _⟩ => ⟨S250000, .i32⟩
  | .hbm, ⟨16, _⟩ => ⟨S250000, .i1⟩
  | .hbm, ⟨17, _⟩ => ⟨S_, .i32⟩
  | .hbm, ⟨18, _⟩ => ⟨S250000, .i32⟩
  | .hbm, ⟨19, _⟩ => ⟨S250000, .i32⟩
  | .hbm, ⟨20, _⟩ => ⟨S250000, .i32⟩
  | .hbm, ⟨21, _⟩ => ⟨S250000x1, .i32⟩
  | .hbm, ⟨22, _⟩ => ⟨S250000x128, .f32⟩
  | .hbm, ⟨23, _⟩ => ⟨S_, .i32⟩
  | .hbm, ⟨24, _⟩ => ⟨S250000, .i32⟩
  | .hbm, ⟨25, _⟩ => ⟨S250000, .i1⟩
  | .hbm, ⟨26, _⟩ => ⟨S_, .i32⟩
  | .hbm, ⟨27, _⟩ => ⟨S250000, .i32⟩
  | .hbm, ⟨28, _⟩ => ⟨S250000, .i32⟩
  | .hbm, ⟨29, _⟩ => ⟨S250000, .i32⟩
  | .hbm, ⟨30, _⟩ => ⟨S250000x1, .i32⟩
  | .hbm, ⟨31, _⟩ => ⟨S250000x128, .f32⟩
  | .hbm, ⟨32, _⟩ => ⟨S250000x520, .f32⟩
  | .hbm, ⟨33, _⟩ => ⟨S250000x520, .f32⟩
  | .hbm, ⟨34, _⟩ => ⟨S1x520, .f32⟩
  | .hbm, ⟨35, _⟩ => ⟨S250000x520, .f32⟩
  | .hbm, ⟨36, _⟩ => ⟨S250000x520, .f32⟩
  | .hbm, ⟨37, _⟩ => ⟨S_, .f32⟩
  | .hbm, ⟨38, _⟩ => ⟨S250000x520, .f32⟩
  | .hbm, ⟨39, _⟩ => ⟨S250000x520, .i1⟩
  | .hbm, ⟨40, _⟩ => ⟨S_, .f32⟩
  | .hbm, ⟨41, _⟩ => ⟨S250000x520, .f32⟩
  | .hbm, ⟨42, _⟩ => ⟨S250000x520, .i1⟩
  | .hbm, ⟨43, _⟩ => ⟨S_, .f32⟩
  | .hbm, ⟨44, _⟩ => ⟨S_, .f32⟩
  | .hbm, ⟨45, _⟩ => ⟨S250000x520, .f32⟩
  | .hbm, ⟨46, _⟩ => ⟨S250000x520, .f32⟩
  | .hbm, ⟨47, _⟩ => ⟨S250000x520, .f32⟩
  | .hbm, ⟨48, _⟩ => ⟨S_, .f32⟩
  | .hbm, ⟨49, _⟩ => ⟨S250000x520, .f32⟩
  | .hbm, ⟨50, _⟩ => ⟨S250000x520, .f32⟩
  | .hbm, ⟨51, _⟩ => ⟨S250000x520, .f32⟩
  | .hbm, ⟨52, _⟩ => ⟨S250000x520, .f32⟩
  | .hbm, ⟨53, _⟩ => ⟨S250000x520, .f32⟩
  | .hbm, ⟨54, _⟩ => ⟨S1x520, .f32⟩
  | .hbm, ⟨55, _⟩ => ⟨S250000x520, .f32⟩
  | .hbm, ⟨56, _⟩ => ⟨S250000x520, .f32⟩
  | .hbm, ⟨57, _⟩ => ⟨S_, .f32⟩
  | .hbm, ⟨58, _⟩ => ⟨S250000x520, .f32⟩
  | .hbm, ⟨59, _⟩ => ⟨S250000x520, .i1⟩
  | .hbm, ⟨60, _⟩ => ⟨S_, .f32⟩
  | .hbm, ⟨61, _⟩ => ⟨S250000x520, .f32⟩
  | .hbm, ⟨62, _⟩ => ⟨S250000x520, .i1⟩
  | .hbm, ⟨63, _⟩ => ⟨S_, .f32⟩
  | .hbm, ⟨64, _⟩ => ⟨S_, .f32⟩
  | .hbm, ⟨65, _⟩ => ⟨S250000x520, .f32⟩
  | .hbm, ⟨66, _⟩ => ⟨S250000x520, .f32⟩
  | .hbm, ⟨67, _⟩ => ⟨S250000x520, .f32⟩
  | .hbm, ⟨68, _⟩ => ⟨S_, .f32⟩
  | .hbm, ⟨69, _⟩ => ⟨S250000x520, .f32⟩
  | .hbm, ⟨70, _⟩ => ⟨S250000x520, .f32⟩
  | .hbm, ⟨71, _⟩ => ⟨S250000x520, .f32⟩
  | .hbm, ⟨72, _⟩ => ⟨S250000x520, .f32⟩
  | .hbm, ⟨73, _⟩ => ⟨S250000x8, .f32⟩
  | .hbm, ⟨74, _⟩ => ⟨S1x8, .f32⟩
  | .hbm, ⟨75, _⟩ => ⟨S250000x8, .f32⟩
  | .hbm, ⟨76, _⟩ => ⟨S250000x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_cst_1 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v4 : Ref sig .tc := ⟨.hbm, 46, rfl⟩
abbrev main_call0_v5 : Ref sig .tc := ⟨.hbm, 47, rfl⟩
abbrev main_call0_cst_2 : Ref sig .tc := ⟨.hbm, 48, rfl⟩
abbrev main_call0_v6 : Ref sig .tc := ⟨.hbm, 49, rfl⟩
abbrev main_call0_v7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_cst_1 : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_v4 : Ref sig .tc := ⟨.hbm, 66, rfl⟩
abbrev main_call1_v5 : Ref sig .tc := ⟨.hbm, 67, rfl⟩
abbrev main_call1_cst_2 : Ref sig .tc := ⟨.hbm, 68, rfl⟩
abbrev main_call1_v6 : Ref sig .tc := ⟨.hbm, 69, rfl⟩
abbrev main_call1_v7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  concatenates_S250000x128_S250000x128_S250000x200_S250000x64_S250000x520_d1 : Shape.Concatenates [S250000x128, S250000x128, S250000x200, S250000x64] S250000x520 1
  bcast_S520_S1x520_1 : S520.BroadcastsInDim S1x520 (![1] : Fin 1 → Fin S1x520.rank)
  bcast_S1x520_S250000x520_0_1 : S1x520.BroadcastsInDim S250000x520 (![0, 1] : Fin 2 → Fin S250000x520.rank)
  bcast_S_S250000x520 : S_.BroadcastsInDim S250000x520 (![] : Fin 0 → Fin S250000x520.rank)
  bcast_S8_S1x8_1 : S8.BroadcastsInDim S1x8 (![1] : Fin 1 → Fin S1x8.rank)
  bcast_S1x8_S250000x8_0_1 : S1x8.BroadcastsInDim S250000x8 (![0, 1] : Fin 2 → Fin S250000x8.rank)
  gather_S50000x128_S250000x1_S250000x128_1_0_n_n_0_1_1128_wf : GatherDims.WF S50000x128 S250000x1 S250000x128 [1] [0] [] [0] [] 1 ![1, 128]
  dot_S250000x520_S520x520_S250000x520_1_0_0_1_n_n_wf : DotDims.WF S250000x520 S520x520 S250000x520 [1] [0] [0] [1] [] []
  dot_S250000x520_S520x8_S250000x8_1_0_0_1_n_n_wf : DotDims.WF S250000x520 S520x8 S250000x8 [1] [0] [0] [1] [] []

variable [Facts₀]

def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def dot_S250000x520_S520x520_S250000x520_1_0_0_1_n_n : DotDims S250000x520 S520x520 S250000x520 where
  lhsContracting := [1]
  rhsContracting := [0]
  lhsNonContracting := [0]
  rhsNonContracting := [1]
  lhsBatch := []
  rhsBatch := []
  wf := dot_S250000x520_S520x520_S250000x520_1_0_0_1_n_n_wf
def dot_S250000x520_S520x8_S250000x8_1_0_0_1_n_n : DotDims S250000x520 S520x8 S250000x8 where
  lhsContracting := [1]
  rhsContracting := [0]
  lhsNonContracting := [0]
  rhsNonContracting := [1]
  lhsBatch := []
  rhsBatch := []
  wf := dot_S250000x520_S520x8_S250000x8_1_0_0_1_n_n_wf

class Facts : Prop extends Facts₀ where

variable [Facts]
-- ==== Proof.Spec.lean ====
/-
  The mathematics both programs compute, on one edge's features, over the extended reals.

  An edge's feature row is the concatenation of four groups: the source node's 128 features, the destination node's
  128, the edge embedding's 200 and the 64 static features (520 in all). Two residual layers follow,
  h ↦ elu (h · W + b) + h, then a linear read-out to 8 values. The first layer's product h · W1 can be taken group by
  group against the matching rows of W1 (rows 0–127, 128–255, 256–455, 456–519) and summed: addition on the extended
  reals is commutative and associative, so splitting a finite sum needs no finiteness. A node is named by a 32-bit
  index word, read the way both programs read it: a negative word wraps by the table's length, and the result is
  clamped into the table.
-/
import Idealize.ShloMosaic.PureOps.Ideal
import Idealize.ShloMosaic.Lib.ValueIdx

noncomputable section

namespace Cert.EdgeMlp

open Idealize.ShloMosaic Idealize.ShloMosaic.ValueIdx

/-- ELU with unit slope, as the kernel spells it: `z` where `z` is positive, `exp (min z 0) - 1` elsewhere. -/
def elu (z : EReal) : EReal := Scalar.select (Ideal.cmp .ogt z 0) z (Ideal.exp (min z 0) - 1)

/-- The reference's spelling of it — `z` where positive, else `1 · (exp z' - 1)` with `z'` the value `z` where `z` is
    not positive and `0` where it is — is the same function: off the positive branch `min z 0 = z = z'`, and `1 · x = x`
    on every extended real. -/
theorem elu_ref (z : EReal) :
    Scalar.select (Ideal.cmp .ogt z 0) z (1 * (Ideal.exp (Scalar.select (Ideal.cmp .ogt z 0) 0 z) - 1)) = elu z := by
  unfold elu
  by_cases h : (0 : EReal) < z
  · -- on the positive branch both sides are `z`
    have hc : Ideal.cmp .ogt z 0 = 1 := by simp [Ideal.cmp, h]
    simp only [hc, Scalar.select, if_true]
  · -- off it the inner choice is `z`, the minimum with `0` is `z`, and `1 · x = x`
    have hc : Ideal.cmp .ogt z 0 = 0 := by simp [Ideal.cmp, h]
    have hne : ¬ ((0 : BitVec 1) = 1) := by decide
    have hm : min z 0 = z := min_eq_left (not_lt.mp h)
    simp only [hc, Scalar.select, if_neg hne, hm, one_mul]

/-- One output column of a row vector times a matrix. -/
def lin {K N : Nat} (h : Fin K → EReal) (W : Fin K → Fin N → EReal) (j : Fin N) : EReal := ∑ k : Fin K, h k * W k j

/-- The four feature groups laid side by side. -/
def cat4 (a b : Fin 128 → EReal) (c : Fin 200 → EReal) (d : Fin 64 → EReal) : Fin 520 → EReal := fun k =>
  if h₁ : k.val < 128 then a ⟨k.val, h₁⟩
  else if h₂ : k.val < 256 then b ⟨k.val - 128, by omega⟩
  else if h₃ : k.val < 456 then c ⟨k.val - 256, by omega⟩
  else d ⟨k.val - 456, by omega⟩

/-- The rows of a 520-row matrix that meet each feature group. -/
def rowsA {N : Nat} (W : Fin 520 → Fin N → EReal) : Fin 128 → Fin N → EReal := fun k => W ⟨k.val, by omega⟩
def rowsB {N : Nat} (W : Fin 520 → Fin N → EReal) : Fin 128 → Fin N → EReal := fun k => W ⟨128 + k.val, by omega⟩
def rowsC {N : Nat} (W : Fin 520 → Fin N → EReal) : Fin 200 → Fin N → EReal := fun k => W ⟨256 + k.val, by omega⟩
def rowsD {N : Nat} (W : Fin 520 → Fin N → EReal) : Fin 64 → Fin N → EReal := fun k => W ⟨456 + k.val, by omega⟩

/-- The product of the concatenated row with a matrix is the sum of the four groups' products with their rows. -/
theorem lin_cat4 {N : Nat} (a b : Fin 128 → EReal) (c : Fin 200 → EReal) (d : Fin 64 → EReal)
    (W : Fin 520 → Fin N → EReal) (j : Fin N) :
    lin (cat4 a b c d) W j = lin a (rowsA W) j + lin b (rowsB W) j + lin c (rowsC W) j + lin d (rowsD W) j := by
  unfold lin
  -- a sum over 128 + (128 + (200 + 64)) positions splits into the four groups' sums
  have split : ∀ f : Fin (128 + (128 + (200 + 64))) → EReal,
      ∑ k, f k = ∑ i : Fin 128, f (Fin.castAdd _ i)
        + (∑ i : Fin 128, f (Fin.natAdd 128 (Fin.castAdd _ i))
          + (∑ i : Fin 200, f (Fin.natAdd 128 (Fin.natAdd 128 (Fin.castAdd _ i)))
            + ∑ i : Fin 64, f (Fin.natAdd 128 (Fin.natAdd 128 (Fin.natAdd 200 i))))) := fun f => by
    rw [Fin.sum_univ_add, Fin.sum_univ_add, Fin.sum_univ_add]
  refine (split (fun k => cat4 a b c d k * W k j)).trans ?_
  rw [add_assoc, add_assoc]
  -- each group's positions fall in that group's branch of the concatenation and on that group's rows
  have hA : ∀ i : Fin 128, cat4 a b c d (Fin.castAdd (128 + (200 + 64)) i) * W (Fin.castAdd (128 + (200 + 64)) i) j
      = a i * rowsA W i j := fun i => by
    have hv : (Fin.castAdd (128 + (200 + 64)) i).val = i.val := rfl
    have e : cat4 a b c d (Fin.castAdd (128 + (200 + 64)) i) = a i := by
      unfold cat4
      rw [dif_pos (by omega)]
      rfl
    rw [e]; rfl
  have hB : ∀ i : Fin 128, cat4 a b c d (Fin.natAdd 128 (Fin.castAdd (200 + 64) i))
        * W (Fin.natAdd 128 (Fin.castAdd (200 + 64) i)) j
      = b i * rowsB W i j := fun i => by
    have hv : (Fin.natAdd 128 (Fin.castAdd (200 + 64) i)).val = 128 + i.val := rfl
    have e : cat4 a b c d (Fin.natAdd 128 (Fin.castAdd (200 + 64) i)) = b i := by
      unfold cat4
      rw [dif_neg (by omega), dif_pos (by omega)]
      exact congrArg b (Fin.ext (by simp))
    rw [e]; rfl
  have hC : ∀ i : Fin 200, cat4 a b c d (Fin.natAdd 128 (Fin.natAdd 128 (Fin.castAdd 64 i)))
        * W (Fin.natAdd 128 (Fin.natAdd 128 (Fin.castAdd 64 i))) j = c i * rowsC W i j := fun i => by
    have hv : (Fin.natAdd 128 (Fin.natAdd 128 (Fin.castAdd 64 i))).val = 128 + (128 + i.val) := rfl
    have e : cat4 a b c d (Fin.natAdd 128 (Fin.natAdd 128 (Fin.castAdd 64 i))) = c i := by
      unfold cat4
      rw [dif_neg (by omega), dif_neg (by omega), dif_pos (by omega)]
      exact congrArg c (Fin.ext (by simp; omega))
    rw [e]
    exact congrArg (fun r => c i * W r j) (Fin.ext (by simp [hv]; omega))
  have hD : ∀ i : Fin 64, cat4 a b c d (Fin.natAdd 128 (Fin.natAdd 128 (Fin.natAdd 200 i)))
        * W (Fin.natAdd 128 (Fin.natAdd 128 (Fin.natAdd 200 i))) j = d i * rowsD W i j := fun i => by
    have hv : (Fin.natAdd 128 (Fin.natAdd 128 (Fin.natAdd 200 i))).val = 128 + (128 + (200 + i.val)) := rfl
    have e : cat4 a b c d (Fin.natAdd 128 (Fin.natAdd 128 (Fin.natAdd 200 i))) = d i := by
      unfold cat4
      rw [dif_neg (by omega), dif_neg (by omega), dif_neg (by omega)]
      exact congrArg d (Fin.ext (by simp; omega))
    rw [e]
    exact congrArg (fun r => d i * W r j) (Fin.ext (by simp [hv]; omega))
  simp only [hA, hB, hC, hD]

/-- The first residual layer, its product taken group by group. -/
def hid1 (a b : Fin 128 → EReal) (c : Fin 200 → EReal) (d : Fin 64 → EReal)
    (Wa Wb : Fin 128 → Fin 520 → EReal) (Wc : Fin 200 → Fin 520 → EReal) (Wd : Fin 64 → Fin 520 → EReal)
    (b1 : Fin 520 → EReal) : Fin 520 → EReal :=
  fun k => elu (lin a Wa k + lin b Wb k + lin c Wc k + lin d Wd k + b1 k) + cat4 a b c d k

/-- A residual layer on a whole 520-row. -/
def hid (h : Fin 520 → EReal) (W : Fin 520 → Fin 520 → EReal) (b : Fin 520 → EReal) : Fin 520 → EReal :=
  fun k => elu (lin h W k + b k) + h k

/-- The read-out. -/
def readout (h : Fin 520 → EReal) (Wo : Fin 520 → Fin 8 → EReal) (bo : Fin 8 → EReal) : Fin 8 → EReal :=
  fun j => lin h Wo j + bo j

/-- The whole network on one edge, the first layer group by group (the kernel's arrangement). -/
def net (a b : Fin 128 → EReal) (c : Fin 200 → EReal) (d : Fin 64 → EReal)
    (Wa Wb : Fin 128 → Fin 520 → EReal) (Wc : Fin 200 → Fin 520 → EReal) (Wd : Fin 64 → Fin 520 → EReal)
    (b1 : Fin 520 → EReal) (W2 : Fin 520 → Fin 520 → EReal) (b2 : Fin 520 → EReal)
    (Wo : Fin 520 → Fin 8 → EReal) (bo : Fin 8 → EReal) : Fin 8 → EReal :=
  readout (hid (hid1 a b c d Wa Wb Wc Wd b1) W2 b2) Wo bo

/-- The same with the first layer as one product over the concatenated row (the reference's arrangement). -/
theorem net_whole (a b : Fin 128 → EReal) (c : Fin 200 → EReal) (d : Fin 64 → EReal)
    (W1 : Fin 520 → Fin 520 → EReal) (b1 : Fin 520 → EReal) (W2 : Fin 520 → Fin 520 → EReal) (b2 : Fin 520 → EReal)
    (Wo : Fin 520 → Fin 8 → EReal) (bo : Fin 8 → EReal) :
    readout (hid (hid (cat4 a b c d) W1 b1) W2 b2) Wo bo
      = net a b c d (rowsA W1) (rowsB W1) (rowsC W1) (rowsD W1) b1 W2 b2 Wo bo := by
  have e : hid (cat4 a b c d) W1 b1 = hid1 a b c d (rowsA W1) (rowsB W1) (rowsC W1) (rowsD W1) b1 := by
    funext k
    simp only [hid, hid1, lin_cat4]
  rw [net, e]

/-! ## Nodes from index words -/

/-- A negative index word wraps by the table's 50000 rows (jnp's negative indexing). -/
def wrap (w : BitVec 32) : BitVec 32 := Scalar.select (IntOp.cmpi .slt w 0#32) (IntOp.addi w 50000#32) w

/-- The table row an index word names: wrapped, read signed, clamped into the table. -/
def node (w : BitVec 32) : Fin 50000 := ⟨min (wrap w).toInt.toNat 49999, by omega⟩

/-- An index word inside the table. -/
def InTable (w : BitVec 32) : Prop := 0 ≤ w.toInt ∧ w.toInt < 50000

/-! ## The whole result -/

/-- A matrix as a function of row and column, a vector as a function of its position. -/
abbrev mat {K N : Nat} (W : (⟨2, ![K, N]⟩ : Shape).Idx → EReal) : Fin K → Fin N → EReal := fun k j => W (ix2 k j)
abbrev vec {N : Nat} (b : (⟨1, ![N]⟩ : Shape).Idx → EReal) : Fin N → EReal := fun j => b (ix1 j)

/-- The result at edge `e`, output column `j`: the network on the features of `e`'s two end nodes, its embedding and its
    static features. -/
def Gat (X : (⟨2, ![50000, 128]⟩ : Shape).Idx → EReal) (I : IVec ⟨2, ![2, 250000]⟩ 32)
    (Em : (⟨2, ![250000, 200]⟩ : Shape).Idx → EReal) (St : (⟨2, ![250000, 64]⟩ : Shape).Idx → EReal)
    (W1 : (⟨2, ![520, 520]⟩ : Shape).Idx → EReal) (b1 : (⟨1, ![520]⟩ : Shape).Idx → EReal)
    (W2 : (⟨2, ![520, 520]⟩ : Shape).Idx → EReal) (b2 : (⟨1, ![520]⟩ : Shape).Idx → EReal)
    (Wo : (⟨2, ![520, 8]⟩ : Shape).Idx → EReal) (bo : (⟨1, ![8]⟩ : Shape).Idx → EReal)
    (e : Fin 250000) (j : Fin 8) : EReal :=
  net (fun k => X (ix2 (node (I (ix2 (0 : Fin 2) e))) k)) (fun k => X (ix2 (node (I (ix2 (1 : Fin 2) e))) k))
    (fun k => Em (ix2 e k)) (fun k => St (ix2 e k))
    (rowsA (mat W1)) (rowsB (mat W1)) (rowsC (mat W1)) (rowsD (mat W1)) (vec b1) (mat W2) (vec b2) (mat Wo) (vec bo) j

/-- The whole result array. -/
def G (X : (⟨2, ![50000, 128]⟩ : Shape).Idx → EReal) (I : IVec ⟨2, ![2, 250000]⟩ 32)
    (Em : (⟨2, ![250000, 200]⟩ : Shape).Idx → EReal) (St : (⟨2, ![250000, 64]⟩ : Shape).Idx → EReal)
    (W1 : (⟨2, ![520, 520]⟩ : Shape).Idx → EReal) (b1 : (⟨1, ![520]⟩ : Shape).Idx → EReal)
    (W2 : (⟨2, ![520, 520]⟩ : Shape).Idx → EReal) (b2 : (⟨1, ![520]⟩ : Shape).Idx → EReal)
    (Wo : (⟨2, ![520, 8]⟩ : Shape).Idx → EReal) (bo : (⟨1, ![8]⟩ : Shape).Idx → EReal) :
    (⟨2, ![250000, 8]⟩ : Shape).Idx → EReal :=
  fun i => Gat X I Em St W1 b1 W2 b2 Wo bo (i 0) (i 1)

end Cert.EdgeMlp

end
-- ==== Proof.KerBlocks.lean ====
/-
  Where each window's block sits on the grid, and each staged block read at an entry. The grid has 125 points; point t
  stages rows 2000·t … 2000·t + 1999 of the four feature arrays and of the output, and the whole of every weight and
  bias array: a block's coordinate is always its block index times the block's extent plus the coordinate inside it.
-/
import proofs.«422782_j68839735820406_3_alg».proof.Proof.Gen.KernelIdeal.Value
import Idealize.ShloMosaic.Lib.Pipeline.Value
import Idealize.ShloMosaic.Lib.ValueIdx

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The edge that row r of point t's blocks belongs to. -/
def edgeAt (t : Fin cfg0.N) (r : Fin 2000) : Fin 250000 :=
  ⟨2000 * t.val + r.val, by have h := t.isLt; have hN : cfg0.N = 125 := N_0; have hr := r.isLt; omega⟩

/-! ## Where each window's block sits -/

theorem idx_row0 : ∀ t : Fin cfg0.N, win0_0.index t (0 : Fin 2) = t.val ∧ win0_0.index t (1 : Fin 2) = 0 :=
  (by decide +kernel : ∀ t : Fin grid0.N, _)
theorem idx_row1 : ∀ t : Fin cfg0.N, win0_1.index t (0 : Fin 2) = t.val ∧ win0_1.index t (1 : Fin 2) = 0 :=
  (by decide +kernel : ∀ t : Fin grid0.N, _)
theorem idx_row2 : ∀ t : Fin cfg0.N, win0_2.index t (0 : Fin 2) = t.val ∧ win0_2.index t (1 : Fin 2) = 0 :=
  (by decide +kernel : ∀ t : Fin grid0.N, _)
theorem idx_row3 : ∀ t : Fin cfg0.N, win0_3.index t (0 : Fin 2) = t.val ∧ win0_3.index t (1 : Fin 2) = 0 :=
  (by decide +kernel : ∀ t : Fin grid0.N, _)
theorem idx_row13 : ∀ t : Fin cfg0.N, win0_13.index t (0 : Fin 2) = t.val ∧ win0_13.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 2) = 0 ∧ win0_12.index t (1 : Fin 2) = 0 :=
  (by decide +kernel : ∀ t : Fin grid0.N, _)

/-! ## Each staged block read at an entry -/

/-- Row r of point t's block of an array staged through window 0 is row 2000·t + r of the array. -/
theorem read0 (A : S250000x128.Idx → EReal) (t : Fin cfg0.N) (r : Fin 2000) (k : Fin 128) :
    ((cfg0.win 0).blk t).view.read (Elt Ideal) A (ix2 r k) = A (ix2 (edgeAt t r) k) := by
  obtain ⟨e0, e1⟩ := idx_row0 t
  show A (((cfg0.win 0).blk t).view.emb (ix2 r k)) = _
  congr 1
  funext a; apply Fin.ext
  match a with
  | ⟨0, _⟩ => show win0_0.index t (0 : Fin 2) * 2000 + 1 * r.val = 2000 * t.val + r.val; omega
  | ⟨1, _⟩ => show win0_0.index t (1 : Fin 2) * 128 + 1 * k.val = k.val; omega

theorem blk0 (c : Dev nD) (t : Fin cfg0.N) (r : Fin 2000) (k : Fin 128) :
    iblk m c 0 t (ix2 r k) = (V m c main_call0_v6 : S250000x128.Idx → EReal) (ix2 (edgeAt t r) k) :=
  read0 (V m c main_call0_v6) t r k

/-- Row r of point t's block of an array staged through window 1 is row 2000·t + r of the array. -/
theorem read1 (A : S250000x128.Idx → EReal) (t : Fin cfg0.N) (r : Fin 2000) (k : Fin 128) :
    ((cfg0.win 1).blk t).view.read (Elt Ideal) A (ix2 r k) = A (ix2 (edgeAt t r) k) := by
  obtain ⟨e0, e1⟩ := idx_row1 t
  show A (((cfg0.win 1).blk t).view.emb (ix2 r k)) = _
  congr 1
  funext a; apply Fin.ext
  match a with
  | ⟨0, _⟩ => show win0_1.index t (0 : Fin 2) * 2000 + 1 * r.val = 2000 * t.val + r.val; omega
  | ⟨1, _⟩ => show win0_1.index t (1 : Fin 2) * 128 + 1 * k.val = k.val; omega

theorem blk1 (c : Dev nD) (t : Fin cfg0.N) (r : Fin 2000) (k : Fin 128) :
    iblk m c 1 t (ix2 r k) = (V m c main_call0_v7 : S250000x128.Idx → EReal) (ix2 (edgeAt t r) k) :=
  read1 (V m c main_call0_v7) t r k

/-- Row r of point t's block of an array staged through window 2 is row 2000·t + r of the array. -/
theorem read2 (A : S250000x200.Idx → EReal) (t : Fin cfg0.N) (r : Fin 2000) (k : Fin 200) :
    ((cfg0.win 2).blk t).view.read (Elt Ideal) A (ix2 r k) = A (ix2 (edgeAt t r) k) := by
  obtain ⟨e0, e1⟩ := idx_row2 t
  show A (((cfg0.win 2).blk t).view.emb (ix2 r k)) = _
  congr 1
  funext a; apply Fin.ext
  match a with
  | ⟨0, _⟩ => show win0_2.index t (0 : Fin 2) * 2000 + 1 * r.val = 2000 * t.val + r.val; omega
  | ⟨1, _⟩ => show win0_2.index t (1 : Fin 2) * 200 + 1 * k.val = k.val; omega

theorem blk2 (c : Dev nD) (t : Fin cfg0.N) (r : Fin 2000) (k : Fin 200) :
    iblk m c 2 t (ix2 r k) = (V m c main_arg2 : S250000x200.Idx → EReal) (ix2 (edgeAt t r) k) :=
  read2 (V m c main_arg2) t r k

/-- Row r of point t's block of an array staged through window 3 is row 2000·t + r of the array. -/
theorem read3 (A : S250000x64.Idx → EReal) (t : Fin cfg0.N) (r : Fin 2000) (k : Fin 64) :
    ((cfg0.win 3).blk t).view.read (Elt Ideal) A (ix2 r k) = A (ix2 (edgeAt t r) k) := by
  obtain ⟨e0, e1⟩ := idx_row3 t
  show A (((cfg0.win 3).blk t).view.emb (ix2 r k)) = _
  congr 1
  funext a; apply Fin.ext
  match a with
  | ⟨0, _⟩ => show win0_3.index t (0 : Fin 2) * 2000 + 1 * r.val = 2000 * t.val + r.val; omega
  | ⟨1, _⟩ => show win0_3.index t (1 : Fin 2) * 64 + 1 * k.val = k.val; omega

theorem blk3 (c : Dev nD) (t : Fin cfg0.N) (r : Fin 2000) (k : Fin 64) :
    iblk m c 3 t (ix2 r k) = (V m c main_arg3 : S250000x64.Idx → EReal) (ix2 (edgeAt t r) k) :=
  read3 (V m c main_arg3) t r k

/-- Window 4 stages its whole array at every point. -/
theorem read4 (A : S128x520.Idx → EReal) (t : Fin cfg0.N) (k : Fin 128) (j : Fin 520) :
    ((cfg0.win 4).blk t).view.read (Elt Ideal) A (ix2 k j) = A (ix2 k j) := by
  obtain ⟨e0, e1⟩ := idx_whole4 t
  show A (((cfg0.win 4).blk t).view.emb (ix2 k j)) = _
  congr 1
  funext a; apply Fin.ext
  match a with
  | ⟨0, _⟩ => show win0_4.index t (0 : Fin 2) * 128 + 1 * k.val = k.val; omega
  | ⟨1, _⟩ => show win0_4.index t (1 : Fin 2) * 520 + 1 * j.val = j.val; omega

theorem blk4 (c : Dev nD) (t : Fin cfg0.N) (k : Fin 128) (j : Fin 520) :
    iblk m c 4 t (ix2 k j) = (V m c main_call0_v12 : S128x520.Idx → EReal) (ix2 k j) :=
  read4 (V m c main_call0_v12) t k j

/-- Window 5 stages its whole array at every point. -/
theorem read5 (A : S128x520.Idx → EReal) (t : Fin cfg0.N) (k : Fin 128) (j : Fin 520) :
    ((cfg0.win 5).blk t).view.read (Elt Ideal) A (ix2 k j) = A (ix2 k j) := by
  obtain ⟨e0, e1⟩ := idx_whole5 t
  show A (((cfg0.win 5).blk t).view.emb (ix2 k j)) = _
  congr 1
  funext a; apply Fin.ext
  match a with
  | ⟨0, _⟩ => show win0_5.index t (0 : Fin 2) * 128 + 1 * k.val = k.val; omega
  | ⟨1, _⟩ => show win0_5.index t (1 : Fin 2) * 520 + 1 * j.val = j.val; omega

theorem blk5 (c : Dev nD) (t : Fin cfg0.N) (k : Fin 128) (j : Fin 520) :
    iblk m c 5 t (ix2 k j) = (V m c main_call0_v13 : S128x520.Idx → EReal) (ix2 k j) :=
  read5 (V m c main_call0_v13) t k j

/-- Window 6 stages its whole array at every point. -/
theorem read6 (A : S200x520.Idx → EReal) (t : Fin cfg0.N) (k : Fin 200) (j : Fin 520) :
    ((cfg0.win 6).blk t).view.read (Elt Ideal) A (ix2 k j) = A (ix2 k j) := by
  obtain ⟨e0, e1⟩ := idx_whole6 t
  show A (((cfg0.win 6).blk t).view.emb (ix2 k j)) = _
  congr 1
  funext a; apply Fin.ext
  match a with
  | ⟨0, _⟩ => show win0_6.index t (0 : Fin 2) * 200 + 1 * k.val = k.val; omega
  | ⟨1, _⟩ => show win0_6.index t (1 : Fin 2) * 520 + 1 * j.val = j.val; omega

theorem blk6 (c : Dev nD) (t : Fin cfg0.N) (k : Fin 200) (j : Fin 520) :
    iblk m c 6 t (ix2 k j) = (V m c main_call0_v14 : S200x520.Idx → EReal) (ix2 k j) :=
  read6 (V m c main_call0_v14) t k j

/-- Window 7 stages its whole array at every point. -/
theorem read7 (A : S64x520.Idx → EReal) (t : Fin cfg0.N) (k : Fin 64) (j : Fin 520) :
    ((cfg0.win 7).blk t).view.read (Elt Ideal) A (ix2 k j) = A (ix2 k j) := by
  obtain ⟨e0, e1⟩ := idx_whole7 t
  show A (((cfg0.win 7).blk t).view.emb (ix2 k j)) = _
  congr 1
  funext a; apply Fin.ext
  match a with
  | ⟨0, _⟩ => show win0_7.index t (0 : Fin 2) * 64 + 1 * k.val = k.val; omega
  | ⟨1, _⟩ => show win0_7.index t (1 : Fin 2) * 520 + 1 * j.val = j.val; omega

theorem blk7 (c : Dev nD) (t : Fin cfg0.N) (k : Fin 64) (j : Fin 520) :
    iblk m c 7 t (ix2 k j) = (V m c main_call0_v15 : S64x520.Idx → EReal) (ix2 k j) :=
  read7 (V m c main_call0_v15) t k j

/-- Window 8 stages its whole array at every point. -/
theorem read8 (A : S1x520.Idx → EReal) (t : Fin cfg0.N) (k : Fin 1) (j : Fin 520) :
    ((cfg0.win 8).blk t).view.read (Elt Ideal) A (ix2 k j) = A (ix2 k j) := by
  obtain ⟨e0, e1⟩ := idx_whole8 t
  show A (((cfg0.win 8).blk t).view.emb (ix2 k j)) = _
  congr 1
  funext a; apply Fin.ext
  match a with
  | ⟨0, _⟩ => show win0_8.index t (0 : Fin 2) * 1 + 1 * k.val = k.val; omega
  | ⟨1, _⟩ => show win0_8.index t (1 : Fin 2) * 520 + 1 * j.val = j.val; omega

theorem blk8 (c : Dev nD) (t : Fin cfg0.N) (k : Fin 1) (j : Fin 520) :
    iblk m c 8 t (ix2 k j) = (V m c main_call0_v18 : S1x520.Idx → EReal) (ix2 k j) :=
  read8 (V m c main_call0_v18) t k j

/-- Window 9 stages its whole array at every point. -/
theorem read9 (A : S520x520.Idx → EReal) (t : Fin cfg0.N) (k : Fin 520) (j : Fin 520) :
    ((cfg0.win 9).blk t).view.read (Elt Ideal) A (ix2 k j) = A (ix2 k j) := by
  obtain ⟨e0, e1⟩ := idx_whole9 t
  show A (((cfg0.win 9).blk t).view.emb (ix2 k j)) = _
  congr 1
  funext a; apply Fin.ext
  match a with
  | ⟨0, _⟩ => show win0_9.index t (0 : Fin 2) * 520 + 1 * k.val = k.val; omega
  | ⟨1, _⟩ => show win0_9.index t (1 : Fin 2) * 520 + 1 * j.val = j.val; omega

theorem blk9 (c : Dev nD) (t : Fin cfg0.N) (k : Fin 520) (j : Fin 520) :
    iblk m c 9 t (ix2 k j) = (V m c main_call0_v16 : S520x520.Idx → EReal) (ix2 k j) :=
  read9 (V m c main_call0_v16) t k j

/-- Window 10 stages its whole array at every point. -/
theorem read10 (A : S1x520.Idx → EReal) (t : Fin cfg0.N) (k : Fin 1) (j : Fin 520) :
    ((cfg0.win 10).blk t).view.read (Elt Ideal) A (ix2 k j) = A (ix2 k j) := by
  obtain ⟨e0, e1⟩ := idx_whole10 t
  show A (((cfg0.win 10).blk t).view.emb (ix2 k j)) = _
  congr 1
  funext a; apply Fin.ext
  match a with
  | ⟨0, _⟩ => show win0_10.index t (0 : Fin 2) * 1 + 1 * k.val = k.val; omega
  | ⟨1, _⟩ => show win0_10.index t (1 : Fin 2) * 520 + 1 * j.val = j.val; omega

theorem blk10 (c : Dev nD) (t : Fin cfg0.N) (k : Fin 1) (j : Fin 520) :
    iblk m c 10 t (ix2 k j) = (V m c main_call0_v19 : S1x520.Idx → EReal) (ix2 k j) :=
  read10 (V m c main_call0_v19) t k j

/-- Window 11 stages its whole array at every point. -/
theorem read11 (A : S520x8.Idx → EReal) (t : Fin cfg0.N) (k : Fin 520) (j : Fin 8) :
    ((cfg0.win 11).blk t).view.read (Elt Ideal) A (ix2 k j) = A (ix2 k j) := by
  obtain ⟨e0, e1⟩ := idx_whole11 t
  show A (((cfg0.win 11).blk t).view.emb (ix2 k j)) = _
  congr 1
  funext a; apply Fin.ext
  match a with
  | ⟨0, _⟩ => show win0_11.index t (0 : Fin 2) * 520 + 1 * k.val = k.val; omega
  | ⟨1, _⟩ => show win0_11.index t (1 : Fin 2) * 8 + 1 * j.val = j.val; omega

theorem blk11 (c : Dev nD) (t : Fin cfg0.N) (k : Fin 520) (j : Fin 8) :
    iblk m c 11 t (ix2 k j) = (V m c main_call0_v17 : S520x8.Idx → EReal) (ix2 k j) :=
  read11 (V m c main_call0_v17) t k j

/-- Window 12 stages its whole array at every point. -/
theorem read12 (A : S1x8.Idx → EReal) (t : Fin cfg0.N) (k : Fin 1) (j : Fin 8) :
    ((cfg0.win 12).blk t).view.read (Elt Ideal) A (ix2 k j) = A (ix2 k j) := by
  obtain ⟨e0, e1⟩ := idx_whole12 t
  show A (((cfg0.win 12).blk t).view.emb (ix2 k j)) = _
  congr 1
  funext a; apply Fin.ext
  match a with
  | ⟨0, _⟩ => show win0_12.index t (0 : Fin 2) * 1 + 1 * k.val = k.val; omega
  | ⟨1, _⟩ => show win0_12.index t (1 : Fin 2) * 8 + 1 * j.val = j.val; omega

theorem blk12 (c : Dev nD) (t : Fin cfg0.N) (k : Fin 1) (j : Fin 8) :
    iblk m c 12 t (ix2 k j) = (V m c main_call0_v20 : S1x8.Idx → EReal) (ix2 k j) :=
  read12 (V m c main_call0_v20) t k j

/-- The array entry that entry (r, j) of point t's output block lands on. -/
theorem emb13 (t : Fin cfg0.N) (r : Fin 2000) (j : Fin 8) :
    ((cfg0.win 13).blk t).view.emb (ix2 r j) = (ix2 (edgeAt t r) j : S250000x8.Idx) := by
  obtain ⟨e0, e1⟩ := idx_row13 t
  funext a; apply Fin.ext
  match a with
  | ⟨0, _⟩ => show win0_13.index t (0 : Fin 2) * 2000 + 1 * r.val = 2000 * t.val + r.val; omega
  | ⟨1, _⟩ => show win0_13.index t (1 : Fin 2) * 8 + 1 * j.val = j.val; omega

end Cert.KernelIdeal.EdgeValue

end
-- ==== Proof.KerDots.lean ====
/-
  The five matrix products of the kernel body, each read as a plain sum. Every product contracts the left operand's
  second axis against the right operand's first axis, with no batch axis: at output entry (r, j) and contraction
  position k the left operand is read at (r, k) and the right operand at (k, j). The contraction index set has one axis,
  so it is in bijection with the range of k, and the sum over it is the sum over k.
-/
import proofs.«422782_j68839735820406_3_alg».proof.KernelIdeal
import Idealize.ShloMosaic.Lib.ValueIdx
import Idealize.ShloMosaic.PureOps.Dims
import Mathlib.Algebra.BigOperators.Group.Finset.Basic

noncomputable section

namespace Cert.KernelIdeal.Dots

open Cert.KernelIdeal Idealize.ShloMosaic Idealize.ShloMosaic.ValueIdx

variable [Facts₀]

/-! ## 2000x128 times 128x520 -/

/-- The left operand's row axis is free: it reads the output's row. -/
theorem lhs_S2000x128_S128x520_0 (i : S2000x520.Idx) (q : dot_S2000x128_S128x520_S2000x520_1_0_0_1_n_n.contr.Idx) :
    (dot_S2000x128_S128x520_S2000x520_1_0_0_1_n_n.lhsIdx i q 0).val = (i 0).val := by
  unfold DotDims.lhsIdx
  rw [dif_neg (show ¬(0 : Fin S2000x128.rank) ∈ dot_S2000x128_S128x520_S2000x520_1_0_0_1_n_n.lhsBatch from List.not_mem_nil),
    dif_pos (show (0 : Fin S2000x128.rank) ∈ dot_S2000x128_S128x520_S2000x520_1_0_0_1_n_n.lhsNonContracting from List.mem_singleton.mpr rfl)]
  rfl
/-- The left operand's column axis is the contracted one: it reads the contraction position. -/
theorem lhs_S2000x128_S128x520_1 (i : S2000x520.Idx) (q : dot_S2000x128_S128x520_S2000x520_1_0_0_1_n_n.contr.Idx) :
    (dot_S2000x128_S128x520_S2000x520_1_0_0_1_n_n.lhsIdx i q 1).val = (q ⟨0, Nat.one_pos⟩).val :=
  dot_S2000x128_S128x520_S2000x520_1_0_0_1_n_n.lhsIdx_val_of_single rfl i q
/-- The right operand's row axis is the contracted one. -/
theorem rhs_S2000x128_S128x520_0 (i : S2000x520.Idx) (q : dot_S2000x128_S128x520_S2000x520_1_0_0_1_n_n.contr.Idx) :
    (dot_S2000x128_S128x520_S2000x520_1_0_0_1_n_n.rhsIdx i q 0).val = (q ⟨0, Nat.one_pos⟩).val :=
  dot_S2000x128_S128x520_S2000x520_1_0_0_1_n_n.rhsIdx_val_of_single rfl i q
/-- The right operand's column axis is free: it reads the output's column. -/
theorem rhs_S2000x128_S128x520_1 (i : S2000x520.Idx) (q : dot_S2000x128_S128x520_S2000x520_1_0_0_1_n_n.contr.Idx) :
    (dot_S2000x128_S128x520_S2000x520_1_0_0_1_n_n.rhsIdx i q 1).val = (i 1).val := by
  unfold DotDims.rhsIdx
  rw [dif_neg (show ¬(1 : Fin S128x520.rank) ∈ dot_S2000x128_S128x520_S2000x520_1_0_0_1_n_n.rhsBatch from List.not_mem_nil),
    dif_pos (show (1 : Fin S128x520.rank) ∈ dot_S2000x128_S128x520_S2000x520_1_0_0_1_n_n.rhsNonContracting from List.mem_singleton.mpr rfl)]
  rfl

/-- Entry (r, j) of the product: the sum over k of left (r, k) times right (k, j). -/
theorem dot_S2000x128_S128x520 (l : S2000x128.Idx → EReal) (w : S128x520.Idx → EReal) (r : Fin 2000) (j : Fin 520) :
    (∑ q : dot_S2000x128_S128x520_S2000x520_1_0_0_1_n_n.contr.Idx, l (dot_S2000x128_S128x520_S2000x520_1_0_0_1_n_n.lhsIdx (ix2 r j) q) * w (dot_S2000x128_S128x520_S2000x520_1_0_0_1_n_n.rhsIdx (ix2 r j) q))
      = ∑ k : Fin 128, l (ix2 r k) * w (ix2 k j) := by
  rw [← Equiv.sum_comp (ValueIdx.contrEquiv1 dot_S2000x128_S128x520_S2000x520_1_0_0_1_n_n 128 rfl rfl).symm]
  refine Finset.sum_congr rfl fun k _ => ?_
  have hk := ValueIdx.contrEquiv1_symm_val dot_S2000x128_S128x520_S2000x520_1_0_0_1_n_n 128 rfl rfl k
  have el : dot_S2000x128_S128x520_S2000x520_1_0_0_1_n_n.lhsIdx (ix2 r j) ((ValueIdx.contrEquiv1 dot_S2000x128_S128x520_S2000x520_1_0_0_1_n_n 128 rfl rfl).symm k) = ix2 r k := funext fun a => Fin.ext (by
    match a with
    | ⟨0, _⟩ => exact lhs_S2000x128_S128x520_0 _ _
    | ⟨1, _⟩ => exact (lhs_S2000x128_S128x520_1 _ _).trans hk)
  have er : dot_S2000x128_S128x520_S2000x520_1_0_0_1_n_n.rhsIdx (ix2 r j) ((ValueIdx.contrEquiv1 dot_S2000x128_S128x520_S2000x520_1_0_0_1_n_n 128 rfl rfl).symm k) = ix2 k j := funext fun a => Fin.ext (by
    match a with
    | ⟨0, _⟩ => exact (rhs_S2000x128_S128x520_0 _ _).trans hk
    | ⟨1, _⟩ => exact rhs_S2000x128_S128x520_1 _ _)
  rw [el, er]

/-! ## 2000x200 times 200x520 -/

/-- The left operand's row axis is free: it reads the output's row. -/
theorem lhs_S2000x200_S200x520_0 (i : S2000x520.Idx) (q : dot_S2000x200_S200x520_S2000x520_1_0_0_1_n_n.contr.Idx) :
    (dot_S2000x200_S200x520_S2000x520_1_0_0_1_n_n.lhsIdx i q 0).val = (i 0).val := by
  unfold DotDims.lhsIdx
  rw [dif_neg (show ¬(0 : Fin S2000x200.rank) ∈ dot_S2000x200_S200x520_S2000x520_1_0_0_1_n_n.lhsBatch from List.not_mem_nil),
    dif_pos (show (0 : Fin S2000x200.rank) ∈ dot_S2000x200_S200x520_S2000x520_1_0_0_1_n_n.lhsNonContracting from List.mem_singleton.mpr rfl)]
  rfl
/-- The left operand's column axis is the contracted one: it reads the contraction position. -/
theorem lhs_S2000x200_S200x520_1 (i : S2000x520.Idx) (q : dot_S2000x200_S200x520_S2000x520_1_0_0_1_n_n.contr.Idx) :
    (dot_S2000x200_S200x520_S2000x520_1_0_0_1_n_n.lhsIdx i q 1).val = (q ⟨0, Nat.one_pos⟩).val :=
  dot_S2000x200_S200x520_S2000x520_1_0_0_1_n_n.lhsIdx_val_of_single rfl i q
/-- The right operand's row axis is the contracted one. -/
theorem rhs_S2000x200_S200x520_0 (i : S2000x520.Idx) (q : dot_S2000x200_S200x520_S2000x520_1_0_0_1_n_n.contr.Idx) :
    (dot_S2000x200_S200x520_S2000x520_1_0_0_1_n_n.rhsIdx i q 0).val = (q ⟨0, Nat.one_pos⟩).val :=
  dot_S2000x200_S200x520_S2000x520_1_0_0_1_n_n.rhsIdx_val_of_single rfl i q
/-- The right operand's column axis is free: it reads the output's column. -/
theorem rhs_S2000x200_S200x520_1 (i : S2000x520.Idx) (q : dot_S2000x200_S200x520_S2000x520_1_0_0_1_n_n.contr.Idx) :
    (dot_S2000x200_S200x520_S2000x520_1_0_0_1_n_n.rhsIdx i q 1).val = (i 1).val := by
  unfold DotDims.rhsIdx
  rw [dif_neg (show ¬(1 : Fin S200x520.rank) ∈ dot_S2000x200_S200x520_S2000x520_1_0_0_1_n_n.rhsBatch from List.not_mem_nil),
    dif_pos (show (1 : Fin S200x520.rank) ∈ dot_S2000x200_S200x520_S2000x520_1_0_0_1_n_n.rhsNonContracting from List.mem_singleton.mpr rfl)]
  rfl

/-- Entry (r, j) of the product: the sum over k of left (r, k) times right (k, j). -/
theorem dot_S2000x200_S200x520 (l : S2000x200.Idx → EReal) (w : S200x520.Idx → EReal) (r : Fin 2000) (j : Fin 520) :
    (∑ q : dot_S2000x200_S200x520_S2000x520_1_0_0_1_n_n.contr.Idx, l (dot_S2000x200_S200x520_S2000x520_1_0_0_1_n_n.lhsIdx (ix2 r j) q) * w (dot_S2000x200_S200x520_S2000x520_1_0_0_1_n_n.rhsIdx (ix2 r j) q))
      = ∑ k : Fin 200, l (ix2 r k) * w (ix2 k j) := by
  rw [← Equiv.sum_comp (ValueIdx.contrEquiv1 dot_S2000x200_S200x520_S2000x520_1_0_0_1_n_n 200 rfl rfl).symm]
  refine Finset.sum_congr rfl fun k _ => ?_
  have hk := ValueIdx.contrEquiv1_symm_val dot_S2000x200_S200x520_S2000x520_1_0_0_1_n_n 200 rfl rfl k
  have el : dot_S2000x200_S200x520_S2000x520_1_0_0_1_n_n.lhsIdx (ix2 r j) ((ValueIdx.contrEquiv1 dot_S2000x200_S200x520_S2000x520_1_0_0_1_n_n 200 rfl rfl).symm k) = ix2 r k := funext fun a => Fin.ext (by
    match a with
    | ⟨0, _⟩ => exact lhs_S2000x200_S200x520_0 _ _
    | ⟨1, _⟩ => exact (lhs_S2000x200_S200x520_1 _ _).trans hk)
  have er : dot_S2000x200_S200x520_S2000x520_1_0_0_1_n_n.rhsIdx (ix2 r j) ((ValueIdx.contrEquiv1 dot_S2000x200_S200x520_S2000x520_1_0_0_1_n_n 200 rfl rfl).symm k) = ix2 k j := funext fun a => Fin.ext (by
    match a with
    | ⟨0, _⟩ => exact (rhs_S2000x200_S200x520_0 _ _).trans hk
    | ⟨1, _⟩ => exact rhs_S2000x200_S200x520_1 _ _)
  rw [el, er]

/-! ## 2000x64 times 64x520 -/

/-- The left operand's row axis is free: it reads the output's row. -/
theorem lhs_S2000x64_S64x520_0 (i : S2000x520.Idx) (q : dot_S2000x64_S64x520_S2000x520_1_0_0_1_n_n.contr.Idx) :
    (dot_S2000x64_S64x520_S2000x520_1_0_0_1_n_n.lhsIdx i q 0).val = (i 0).val := by
  unfold DotDims.lhsIdx
  rw [dif_neg (show ¬(0 : Fin S2000x64.rank) ∈ dot_S2000x64_S64x520_S2000x520_1_0_0_1_n_n.lhsBatch from List.not_mem_nil),
    dif_pos (show (0 : Fin S2000x64.rank) ∈ dot_S2000x64_S64x520_S2000x520_1_0_0_1_n_n.lhsNonContracting from List.mem_singleton.mpr rfl)]
  rfl
/-- The left operand's column axis is the contracted one: it reads the contraction position. -/
theorem lhs_S2000x64_S64x520_1 (i : S2000x520.Idx) (q : dot_S2000x64_S64x520_S2000x520_1_0_0_1_n_n.contr.Idx) :
    (dot_S2000x64_S64x520_S2000x520_1_0_0_1_n_n.lhsIdx i q 1).val = (q ⟨0, Nat.one_pos⟩).val :=
  dot_S2000x64_S64x520_S2000x520_1_0_0_1_n_n.lhsIdx_val_of_single rfl i q
/-- The right operand's row axis is the contracted one. -/
theorem rhs_S2000x64_S64x520_0 (i : S2000x520.Idx) (q : dot_S2000x64_S64x520_S2000x520_1_0_0_1_n_n.contr.Idx) :
    (dot_S2000x64_S64x520_S2000x520_1_0_0_1_n_n.rhsIdx i q 0).val = (q ⟨0, Nat.one_pos⟩).val :=
  dot_S2000x64_S64x520_S2000x520_1_0_0_1_n_n.rhsIdx_val_of_single rfl i q
/-- The right operand's column axis is free: it reads the output's column. -/
theorem rhs_S2000x64_S64x520_1 (i : S2000x520.Idx) (q : dot_S2000x64_S64x520_S2000x520_1_0_0_1_n_n.contr.Idx) :
    (dot_S2000x64_S64x520_S2000x520_1_0_0_1_n_n.rhsIdx i q 1).val = (i 1).val := by
  unfold DotDims.rhsIdx
  rw [dif_neg (show ¬(1 : Fin S64x520.rank) ∈ dot_S2000x64_S64x520_S2000x520_1_0_0_1_n_n.rhsBatch from List.not_mem_nil),
    dif_pos (show (1 : Fin S64x520.rank) ∈ dot_S2000x64_S64x520_S2000x520_1_0_0_1_n_n.rhsNonContracting from List.mem_singleton.mpr rfl)]
  rfl

/-- Entry (r, j) of the product: the sum over k of left (r, k) times right (k, j). -/
theorem dot_S2000x64_S64x520 (l : S2000x64.Idx → EReal) (w : S64x520.Idx → EReal) (r : Fin 2000) (j : Fin 520) :
    (∑ q : dot_S2000x64_S64x520_S2000x520_1_0_0_1_n_n.contr.Idx, l (dot_S2000x64_S64x520_S2000x520_1_0_0_1_n_n.lhsIdx (ix2 r j) q) * w (dot_S2000x64_S64x520_S2000x520_1_0_0_1_n_n.rhsIdx (ix2 r j) q))
      = ∑ k : Fin 64, l (ix2 r k) * w (ix2 k j) := by
  rw [← Equiv.sum_comp (ValueIdx.contrEquiv1 dot_S2000x64_S64x520_S2000x520_1_0_0_1_n_n 64 rfl rfl).symm]
  refine Finset.sum_congr rfl fun k _ => ?_
  have hk := ValueIdx.contrEquiv1_symm_val dot_S2000x64_S64x520_S2000x520_1_0_0_1_n_n 64 rfl rfl k
  have el : dot_S2000x64_S64x520_S2000x520_1_0_0_1_n_n.lhsIdx (ix2 r j) ((ValueIdx.contrEquiv1 dot_S2000x64_S64x520_S2000x520_1_0_0_1_n_n 64 rfl rfl).symm k) = ix2 r k := funext fun a => Fin.ext (by
    match a with
    | ⟨0, _⟩ => exact lhs_S2000x64_S64x520_0 _ _
    | ⟨1, _⟩ => exact (lhs_S2000x64_S64x520_1 _ _).trans hk)
  have er : dot_S2000x64_S64x520_S2000x520_1_0_0_1_n_n.rhsIdx (ix2 r j) ((ValueIdx.contrEquiv1 dot_S2000x64_S64x520_S2000x520_1_0_0_1_n_n 64 rfl rfl).symm k) = ix2 k j := funext fun a => Fin.ext (by
    match a with
    | ⟨0, _⟩ => exact (rhs_S2000x64_S64x520_0 _ _).trans hk
    | ⟨1, _⟩ => exact rhs_S2000x64_S64x520_1 _ _)
  rw [el, er]

/-! ## 2000x520 times 520x520 -/

/-- The left operand's row axis is free: it reads the output's row. -/
theorem lhs_S2000x520_S520x520_0 (i : S2000x520.Idx) (q : dot_S2000x520_S520x520_S2000x520_1_0_0_1_n_n.contr.Idx) :
    (dot_S2000x520_S520x520_S2000x520_1_0_0_1_n_n.lhsIdx i q 0).val = (i 0).val := by
  unfold DotDims.lhsIdx
  rw [dif_neg (show ¬(0 : Fin S2000x520.rank) ∈ dot_S2000x520_S520x520_S2000x520_1_0_0_1_n_n.lhsBatch from List.not_mem_nil),
    dif_pos (show (0 : Fin S2000x520.rank) ∈ dot_S2000x520_S520x520_S2000x520_1_0_0_1_n_n.lhsNonContracting from List.mem_singleton.mpr rfl)]
  rfl
/-- The left operand's column axis is the contracted one: it reads the contraction position. -/
theorem lhs_S2000x520_S520x520_1 (i : S2000x520.Idx) (q : dot_S2000x520_S520x520_S2000x520_1_0_0_1_n_n.contr.Idx) :
    (dot_S2000x520_S520x520_S2000x520_1_0_0_1_n_n.lhsIdx i q 1).val = (q ⟨0, Nat.one_pos⟩).val :=
  dot_S2000x520_S520x520_S2000x520_1_0_0_1_n_n.lhsIdx_val_of_single rfl i q
/-- The right operand's row axis is the contracted one. -/
theorem rhs_S2000x520_S520x520_0 (i : S2000x520.Idx) (q : dot_S2000x520_S520x520_S2000x520_1_0_0_1_n_n.contr.Idx) :
    (dot_S2000x520_S520x520_S2000x520_1_0_0_1_n_n.rhsIdx i q 0).val = (q ⟨0, Nat.one_pos⟩).val :=
  dot_S2000x520_S520x520_S2000x520_1_0_0_1_n_n.rhsIdx_val_of_single rfl i q
/-- The right operand's column axis is free: it reads the output's column. -/
theorem rhs_S2000x520_S520x520_1 (i : S2000x520.Idx) (q : dot_S2000x520_S520x520_S2000x520_1_0_0_1_n_n.contr.Idx) :
    (dot_S2000x520_S520x520_S2000x520_1_0_0_1_n_n.rhsIdx i q 1).val = (i 1).val := by
  unfold DotDims.rhsIdx
  rw [dif_neg (show ¬(1 : Fin S520x520.rank) ∈ dot_S2000x520_S520x520_S2000x520_1_0_0_1_n_n.rhsBatch from List.not_mem_nil),
    dif_pos (show (1 : Fin S520x520.rank) ∈ dot_S2000x520_S520x520_S2000x520_1_0_0_1_n_n.rhsNonContracting from List.mem_singleton.mpr rfl)]
  rfl

/-- Entry (r, j) of the product: the sum over k of left (r, k) times right (k, j). -/
theorem dot_S2000x520_S520x520 (l : S2000x520.Idx → EReal) (w : S520x520.Idx → EReal) (r : Fin 2000) (j : Fin 520) :
    (∑ q : dot_S2000x520_S520x520_S2000x520_1_0_0_1_n_n.contr.Idx, l (dot_S2000x520_S520x520_S2000x520_1_0_0_1_n_n.lhsIdx (ix2 r j) q) * w (dot_S2000x520_S520x520_S2000x520_1_0_0_1_n_n.rhsIdx (ix2 r j) q))
      = ∑ k : Fin 520, l (ix2 r k) * w (ix2 k j) := by
  rw [← Equiv.sum_comp (ValueIdx.contrEquiv1 dot_S2000x520_S520x520_S2000x520_1_0_0_1_n_n 520 rfl rfl).symm]
  refine Finset.sum_congr rfl fun k _ => ?_
  have hk := ValueIdx.contrEquiv1_symm_val dot_S2000x520_S520x520_S2000x520_1_0_0_1_n_n 520 rfl rfl k
  have el : dot_S2000x520_S520x520_S2000x520_1_0_0_1_n_n.lhsIdx (ix2 r j) ((ValueIdx.contrEquiv1 dot_S2000x520_S520x520_S2000x520_1_0_0_1_n_n 520 rfl rfl).symm k) = ix2 r k := funext fun a => Fin.ext (by
    match a with
    | ⟨0, _⟩ => exact lhs_S2000x520_S520x520_0 _ _
    | ⟨1, _⟩ => exact (lhs_S2000x520_S520x520_1 _ _).trans hk)
  have er : dot_S2000x520_S520x520_S2000x520_1_0_0_1_n_n.rhsIdx (ix2 r j) ((ValueIdx.contrEquiv1 dot_S2000x520_S520x520_S2000x520_1_0_0_1_n_n 520 rfl rfl).symm k) = ix2 k j := funext fun a => Fin.ext (by
    match a with
    | ⟨0, _⟩ => exact (rhs_S2000x520_S520x520_0 _ _).trans hk
    | ⟨1, _⟩ => exact rhs_S2000x520_S520x520_1 _ _)
  rw [el, er]

/-! ## 2000x520 times 520x8 -/

/-- The left operand's row axis is free: it reads the output's row. -/
theorem lhs_S2000x520_S520x8_0 (i : S2000x8.Idx) (q : dot_S2000x520_S520x8_S2000x8_1_0_0_1_n_n.contr.Idx) :
    (dot_S2000x520_S520x8_S2000x8_1_0_0_1_n_n.lhsIdx i q 0).val = (i 0).val := by
  unfold DotDims.lhsIdx
  rw [dif_neg (show ¬(0 : Fin S2000x520.rank) ∈ dot_S2000x520_S520x8_S2000x8_1_0_0_1_n_n.lhsBatch from List.not_mem_nil),
    dif_pos (show (0 : Fin S2000x520.rank) ∈ dot_S2000x520_S520x8_S2000x8_1_0_0_1_n_n.lhsNonContracting from List.mem_singleton.mpr rfl)]
  rfl
/-- The left operand's column axis is the contracted one: it reads the contraction position. -/
theorem lhs_S2000x520_S520x8_1 (i : S2000x8.Idx) (q : dot_S2000x520_S520x8_S2000x8_1_0_0_1_n_n.contr.Idx) :
    (dot_S2000x520_S520x8_S2000x8_1_0_0_1_n_n.lhsIdx i q 1).val = (q ⟨0, Nat.one_pos⟩).val :=
  dot_S2000x520_S520x8_S2000x8_1_0_0_1_n_n.lhsIdx_val_of_single rfl i q
/-- The right operand's row axis is the contracted one. -/
theorem rhs_S2000x520_S520x8_0 (i : S2000x8.Idx) (q : dot_S2000x520_S520x8_S2000x8_1_0_0_1_n_n.contr.Idx) :
    (dot_S2000x520_S520x8_S2000x8_1_0_0_1_n_n.rhsIdx i q 0).val = (q ⟨0, Nat.one_pos⟩).val :=
  dot_S2000x520_S520x8_S2000x8_1_0_0_1_n_n.rhsIdx_val_of_single rfl i q
/-- The right operand's column axis is free: it reads the output's column. -/
theorem rhs_S2000x520_S520x8_1 (i : S2000x8.Idx) (q : dot_S2000x520_S520x8_S2000x8_1_0_0_1_n_n.contr.Idx) :
    (dot_S2000x520_S520x8_S2000x8_1_0_0_1_n_n.rhsIdx i q 1).val = (i 1).val := by
  unfold DotDims.rhsIdx
  rw [dif_neg (show ¬(1 : Fin S520x8.rank) ∈ dot_S2000x520_S520x8_S2000x8_1_0_0_1_n_n.rhsBatch from List.not_mem_nil),
    dif_pos (show (1 : Fin S520x8.rank) ∈ dot_S2000x520_S520x8_S2000x8_1_0_0_1_n_n.rhsNonContracting from List.mem_singleton.mpr rfl)]
  rfl

/-- Entry (r, j) of the product: the sum over k of left (r, k) times right (k, j). -/
theorem dot_S2000x520_S520x8 (l : S2000x520.Idx → EReal) (w : S520x8.Idx → EReal) (r : Fin 2000) (j : Fin 8) :
    (∑ q : dot_S2000x520_S520x8_S2000x8_1_0_0_1_n_n.contr.Idx, l (dot_S2000x520_S520x8_S2000x8_1_0_0_1_n_n.lhsIdx (ix2 r j) q) * w (dot_S2000x520_S520x8_S2000x8_1_0_0_1_n_n.rhsIdx (ix2 r j) q))
      = ∑ k : Fin 520, l (ix2 r k) * w (ix2 k j) := by
  rw [← Equiv.sum_comp (ValueIdx.contrEquiv1 dot_S2000x520_S520x8_S2000x8_1_0_0_1_n_n 520 rfl rfl).symm]
  refine Finset.sum_congr rfl fun k _ => ?_
  have hk := ValueIdx.contrEquiv1_symm_val dot_S2000x520_S520x8_S2000x8_1_0_0_1_n_n 520 rfl rfl k
  have el : dot_S2000x520_S520x8_S2000x8_1_0_0_1_n_n.lhsIdx (ix2 r j) ((ValueIdx.contrEquiv1 dot_S2000x520_S520x8_S2000x8_1_0_0_1_n_n 520 rfl rfl).symm k) = ix2 r k := funext fun a => Fin.ext (by
    match a with
    | ⟨0, _⟩ => exact lhs_S2000x520_S520x8_0 _ _
    | ⟨1, _⟩ => exact (lhs_S2000x520_S520x8_1 _ _).trans hk)
  have er : dot_S2000x520_S520x8_S2000x8_1_0_0_1_n_n.rhsIdx (ix2 r j) ((ValueIdx.contrEquiv1 dot_S2000x520_S520x8_S2000x8_1_0_0_1_n_n 520 rfl rfl).symm k) = ix2 k j := funext fun a => Fin.ext (by
    match a with
    | ⟨0, _⟩ => exact (rhs_S2000x520_S520x8_0 _ _).trans hk
    | ⟨1, _⟩ => exact rhs_S2000x520_S520x8_1 _ _)
  rw [el, er]

end Cert.KernelIdeal.Dots

end
-- ==== Proof.KerPayload.lean ====
/-
  The kernel body's stored block, read at one entry. The body loads the four feature blocks of 2000 edges and the
  weights, forms the first layer's product as four partial products (one per feature group, each against its own rows
  of the first weight matrix) summed left to right, adds the bias, applies ELU and the residual (the four blocks laid
  side by side), repeats with the second weight matrix, and reads out. Every step is row-local, so entry (r, j) of the
  stored block is the network on row r of the four blocks. A change of float format is the identity on the extended
  reals, and a matrix product into a zero accumulator is the plain sum over the contracted axis.
-/
import proofs.«422782_j68839735820406_3_alg».proof.Proof.Gen.KernelIdeal.Frame
import proofs.«422782_j68839735820406_3_alg».proof.Proof.Spec
import proofs.«422782_j68839735820406_3_alg».proof.Proof.KerDots
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost
import Mathlib.Tactic.SplitIfs

noncomputable section

namespace Cert.KernelIdeal.EdgeValue

open Cert.KernelIdeal Cert.KernelIdeal.Gen Idealize.ShloMosaic Idealize.ShloMosaic.ValueIdx Cert.EdgeMlp

/-! ## The whole-block rectangles

Every load and the one store go through the rectangle at offset (0, 0) of the block's full extent, so a load reads the
block as it is and the store leaves its payload as the block. -/

/-- The offset (0, 0) is the zero offset. -/
theorem hz : (![0, 0] : Fin 2 → Nat) = fun _ => 0 :=
  funext fun a => match a with | ⟨0, _⟩ => rfl | ⟨1, _⟩ => rfl

/-- The stored block is the body's arithmetic on the input blocks themselves. -/
theorem out0_13_eq (x0 x1 : Vec Ideal S2000x128 .f32) (x2 : Vec Ideal S2000x200 .f32) (x3 : Vec Ideal S2000x64 .f32)
    (x4 x5 : Vec Ideal S128x520 .bf16) (x6 : Vec Ideal S200x520 .bf16) (x7 : Vec Ideal S64x520 .bf16)
    (x8 : Vec Ideal S1x520 .f32) (x9 : Vec Ideal S520x520 .bf16) (x10 : Vec Ideal S1x520 .f32)
    (x11 : Vec Ideal S520x8 .bf16) (x12 : Vec Ideal S1x8 .f32) :
    out0_13 x0 x1 x2 x3 x4 x5 x6 x7 x8 x9 x10 x11 x12
      = k0_pay1 (k0_pay4 x0 x1 x2 x3 x4 x5 x6 x7 x8) (k0_pay5 x0 x1 x2 x3) (k0_pay6 x0 x1 x2 x3 x4 x5 x6 x7 x8)
          (k0_pay7 x0 x1 x2 x3 x4 x5 x6 x7 x8) x9 x10 x11 x12 := by
  unfold out0_13
  rw [View.canon_unit_zero hz]
  simp only [View.ld_unit_zero (S := S2000x128) hz, View.ld_unit_zero (S := S2000x200) hz,
    View.ld_unit_zero (S := S2000x64) hz, View.ld_unit_zero (S := S128x520) hz, View.ld_unit_zero (S := S200x520) hz,
    View.ld_unit_zero (S := S64x520) hz, View.ld_unit_zero (S := S1x520) hz, View.ld_unit_zero (S := S520x520) hz,
    View.ld_unit_zero (S := S520x8) hz, View.ld_unit_zero (S := S1x8) hz]

/-! ## The pieces of the arithmetic, each at an entry -/

/-- A one-row bias block spread over the 2000 rows reads its own column entry. -/
theorem bias520_apply (b : FVec Ideal S1x520 .f32) (h : S1x520.Broadcasts S2000x520) (r : Fin 2000) (k : Fin 520) :
    broadcastTo S2000x520 b h (ix2 r k) = b (ix2 (0 : Fin 1) k) :=
  broadcastTo_apply b h (ix2 r k) (ix2 (0 : Fin 1) k) (fun a => match a with | ⟨0, _⟩ => rfl | ⟨1, _⟩ => rfl)

theorem bias8_apply (b : FVec Ideal S1x8 .f32) (h : S1x8.Broadcasts S2000x8) (r : Fin 2000) (k : Fin 8) :
    broadcastTo S2000x8 b h (ix2 r k) = b (ix2 (0 : Fin 1) k) :=
  broadcastTo_apply b h (ix2 r k) (ix2 (0 : Fin 1) k) (fun a => match a with | ⟨0, _⟩ => rfl | ⟨1, _⟩ => rfl)

/-- The constant words of the body: zero and one. -/
theorem cst_zero : (Scalar.ofBits .f32 0x00000000#32 : Ideal .f32) = (0 : EReal) := Ideal.ofBits_zero_f32
theorem cst_one : (Scalar.ofBits .f32 0x3F800000#32 : Ideal .f32) = (1 : EReal) := Ideal.ofBits_one_f32

/-- The exponential is taken entry by entry. -/
theorem exp_apply {s : Shape} (a : FVec Ideal s .f32) (i : s.Idx) : exp a i = Ideal.exp (a i) := rfl

/-! Each matrix product into a zero accumulator, at entry (r, j): row r of the left operand against column j of the
right one. -/

theorem mm_S2000x128_S128x520 (l : FVec Ideal S2000x128 .bf16) (w : FVec Ideal S128x520 .bf16) (r : Fin 2000) (j : Fin 520) :
    matmul dot_S2000x128_S128x520_S2000x520_1_0_0_1_n_n none l w (constant S2000x520 .f32 0x00000000#32) (ix2 r j)
      = lin (fun q => l (ix2 r q)) (mat w) j :=
  (Ideal.matmul_constant_zero_apply dot_S2000x128_S128x520_S2000x520_1_0_0_1_n_n none l w (ix2 r j)).trans (Dots.dot_S2000x128_S128x520 l w r j)

theorem mm_S2000x200_S200x520 (l : FVec Ideal S2000x200 .bf16) (w : FVec Ideal S200x520 .bf16) (r : Fin 2000) (j : Fin 520) :
    matmul dot_S2000x200_S200x520_S2000x520_1_0_0_1_n_n none l w (constant S2000x520 .f32 0x00000000#32) (ix2 r j)
      = lin (fun q => l (ix2 r q)) (mat w) j :=
  (Ideal.matmul_constant_zero_apply dot_S2000x200_S200x520_S2000x520_1_0_0_1_n_n none l w (ix2 r j)).trans (Dots.dot_S2000x200_S200x520 l w r j)

theorem mm_S2000x64_S64x520 (l : FVec Ideal S2000x64 .bf16) (w : FVec Ideal S64x520 .bf16) (r : Fin 2000) (j : Fin 520) :
    matmul dot_S2000x64_S64x520_S2000x520_1_0_0_1_n_n none l w (constant S2000x520 .f32 0x00000000#32) (ix2 r j)
      = lin (fun q => l (ix2 r q)) (mat w) j :=
  (Ideal.matmul_constant_zero_apply dot_S2000x64_S64x520_S2000x520_1_0_0_1_n_n none l w (ix2 r j)).trans (Dots.dot_S2000x64_S64x520 l w r j)

theorem mm_S2000x520_S520x520 (l : FVec Ideal S2000x520 .bf16) (w : FVec Ideal S520x520 .bf16) (r : Fin 2000) (j : Fin 520) :
    matmul dot_S2000x520_S520x520_S2000x520_1_0_0_1_n_n none l w (constant S2000x520 .f32 0x00000000#32) (ix2 r j)
      = lin (fun q => l (ix2 r q)) (mat w) j :=
  (Ideal.matmul_constant_zero_apply dot_S2000x520_S520x520_S2000x520_1_0_0_1_n_n none l w (ix2 r j)).trans (Dots.dot_S2000x520_S520x520 l w r j)

theorem mm_S2000x520_S520x8 (l : FVec Ideal S2000x520 .bf16) (w : FVec Ideal S520x8 .bf16) (r : Fin 2000) (j : Fin 8) :
    matmul dot_S2000x520_S520x8_S2000x8_1_0_0_1_n_n none l w (constant S2000x8 .f32 0x00000000#32) (ix2 r j)
      = lin (fun q => l (ix2 r q)) (mat w) j :=
  (Ideal.matmul_constant_zero_apply dot_S2000x520_S520x8_S2000x8_1_0_0_1_n_n none l w (ix2 r j)).trans (Dots.dot_S2000x520_S520x8 l w r j)

/-- The four blocks laid side by side, at entry (r, k): the entry of the block whose columns hold k. -/
theorem pay5_apply (v0 v2 : Vec Ideal S2000x128 .f32) (v4 : Vec Ideal S2000x200 .f32) (v5 : Vec Ideal S2000x64 .f32)
    (r : Fin 2000) (k : Fin 520) :
    k0_pay5 v0 v2 v4 v5 (ix2 r k)
      = cat4 (fun q => v0 (ix2 r q)) (fun q => v2 (ix2 r q)) (fun q => v4 (ix2 r q)) (fun q => v5 (ix2 r q)) k := by
  unfold k0_pay5 k0_pay2 k0_pay3
  simp only [shapeCast_self]
  unfold cat4
  split_ifs with h₁ h₂ h₃
  · exact concatenate_apply_piece (1 : Fin S2000x520.rank) _ _ (ix2 r k) 0 (by simp) S2000x128 v0 rfl rfl 0 rfl
      (ix2 r ⟨k.val, h₁⟩) (fun b hb => match b, hb with | ⟨0, _⟩, _ => rfl | ⟨1, _⟩, hb => absurd rfl hb)
      (Nat.zero_add _)
  · exact concatenate_apply_piece (1 : Fin S2000x520.rank) _ _ (ix2 r k) 1 (by simp) S2000x128 v2 rfl rfl 128 rfl
      (ix2 r ⟨k.val - 128, by omega⟩) (fun b hb => match b, hb with | ⟨0, _⟩, _ => rfl | ⟨1, _⟩, hb => absurd rfl hb)
      (by show 128 + (k.val - 128) = k.val; omega)
  · exact concatenate_apply_piece (1 : Fin S2000x520.rank) _ _ (ix2 r k) 2 (by simp) S2000x200 v4 rfl rfl 256 rfl
      (ix2 r ⟨k.val - 256, by omega⟩) (fun b hb => match b, hb with | ⟨0, _⟩, _ => rfl | ⟨1, _⟩, hb => absurd rfl hb)
      (by show 256 + (k.val - 256) = k.val; omega)
  · exact concatenate_apply_piece (1 : Fin S2000x520.rank) _ _ (ix2 r k) 3 (by simp) S2000x64 v5 rfl rfl 456 rfl
      (ix2 r ⟨k.val - 456, by omega⟩) (fun b hb => match b, hb with | ⟨0, _⟩, _ => rfl | ⟨1, _⟩, hb => absurd rfl hb)
      (by show 456 + (k.val - 456) = k.val; omega)

/-- The first layer before its activation, at entry (r, k): the four partial products summed left to right, plus
    the bias. -/
theorem pay4_apply (v0 v2 : Vec Ideal S2000x128 .f32) (v4 : Vec Ideal S2000x200 .f32) (v5 : Vec Ideal S2000x64 .f32)
    (v10 v13 : Vec Ideal S128x520 .bf16) (v17 : Vec Ideal S200x520 .bf16) (v21 : Vec Ideal S64x520 .bf16)
    (v25 : Vec Ideal S1x520 .f32) (r : Fin 2000) (k : Fin 520) :
    k0_pay4 v0 v2 v4 v5 v10 v13 v17 v21 v25 (ix2 r k)
      = (lin (fun q => v0 (ix2 r q)) (mat v10) k + lin (fun q => v2 (ix2 r q)) (mat v13) k
        + lin (fun q => v4 (ix2 r q)) (mat v17) k + lin (fun q => v5 (ix2 r q)) (mat v21) k + v25 (ix2 (0 : Fin 1) k)) := by
  unfold k0_pay4 k0_pay2 k0_pay3
  simp only [shapeCast_self, addf_apply, mm_S2000x128_S128x520, mm_S2000x200_S200x520, mm_S2000x64_S64x520,
    bias520_apply, truncf_apply]

/-- The first layer's comparison with zero, at an entry. -/
theorem pay6_apply (v0 v2 : Vec Ideal S2000x128 .f32) (v4 : Vec Ideal S2000x200 .f32) (v5 : Vec Ideal S2000x64 .f32)
    (v10 v13 : Vec Ideal S128x520 .bf16) (v17 : Vec Ideal S200x520 .bf16) (v21 : Vec Ideal S64x520 .bf16)
    (v25 : Vec Ideal S1x520 .f32) (i : S2000x520.Idx) :
    k0_pay6 v0 v2 v4 v5 v10 v13 v17 v21 v25 i = Ideal.cmp .ogt (k0_pay4 v0 v2 v4 v5 v10 v13 v17 v21 v25 i) 0 := by
  unfold k0_pay6
  simp only [cmpf_apply, broadcast_apply, cst_zero]
  rfl

/-- The first layer's exponential of the negative part, at an entry. -/
theorem pay7_apply (v0 v2 : Vec Ideal S2000x128 .f32) (v4 : Vec Ideal S2000x200 .f32) (v5 : Vec Ideal S2000x64 .f32)
    (v10 v13 : Vec Ideal S128x520 .bf16) (v17 : Vec Ideal S200x520 .bf16) (v21 : Vec Ideal S64x520 .bf16)
    (v25 : Vec Ideal S1x520 .f32) (i : S2000x520.Idx) :
    k0_pay7 v0 v2 v4 v5 v10 v13 v17 v21 v25 i = Ideal.exp (min (k0_pay4 v0 v2 v4 v5 v10 v13 v17 v21 v25 i) 0) := by
  unfold k0_pay7
  simp only [exp_apply, minimumf_apply, broadcast_apply, cst_zero]

/-- The rest of the body at entry (r, j): from the first layer's pre-activation, comparison, exponential and residual
    blocks, the first layer's output row, then the second residual layer and the read-out on that row. -/
theorem pay1_apply (v28 v29 : FVec Ideal S2000x520 .f32) (v31 : IVec S2000x520 1) (v34 : FVec Ideal S2000x520 .f32)
    (v40 : Vec Ideal S520x520 .bf16) (v43 : Vec Ideal S1x520 .f32) (v57 : Vec Ideal S520x8 .bf16)
    (v60 : Vec Ideal S1x8 .f32) (r : Fin 2000) (j : Fin 8) :
    k0_pay1 v28 v29 v31 v34 v40 v43 v57 v60 (ix2 r j)
      = readout (hid (fun k => Scalar.select (v31 (ix2 r k)) (v28 (ix2 r k)) (v34 (ix2 r k) - 1) + v29 (ix2 r k))
          (mat v40) (fun k => v43 (ix2 (0 : Fin 1) k))) (mat v57) (fun k => v60 (ix2 (0 : Fin 1) k)) j := by
  unfold k0_pay1
  simp only [shapeCast_self, addf_apply, subf_apply, select_apply, cmpf_apply, minimumf_apply, exp_apply, truncf_apply,
    broadcast_apply, mm_S2000x520_S520x520, mm_S2000x520_S520x8, bias520_apply, bias8_apply, cst_zero, cst_one]
  rfl

/-- Entry (r, j) of what the body leaves in the output window's buffer is the network on row r of the input blocks. -/
theorem out0_13_apply (x0 x1 : Vec Ideal S2000x128 .f32) (x2 : Vec Ideal S2000x200 .f32) (x3 : Vec Ideal S2000x64 .f32)
    (x4 x5 : Vec Ideal S128x520 .bf16) (x6 : Vec Ideal S200x520 .bf16) (x7 : Vec Ideal S64x520 .bf16)
    (x8 : Vec Ideal S1x520 .f32) (x9 : Vec Ideal S520x520 .bf16) (x10 : Vec Ideal S1x520 .f32)
    (x11 : Vec Ideal S520x8 .bf16) (x12 : Vec Ideal S1x8 .f32) (r : Fin 2000) (j : Fin 8) :
    out0_13 x0 x1 x2 x3 x4 x5 x6 x7 x8 x9 x10 x11 x12 (ix2 r j)
      = net (fun k => x0 (ix2 r k)) (fun k => x1 (ix2 r k)) (fun k => x2 (ix2 r k)) (fun k => x3 (ix2 r k))
          (mat x4) (mat x5) (mat x6) (mat x7) (fun k => x8 (ix2 (0 : Fin 1) k))
          (mat x9) (fun k => x10 (ix2 (0 : Fin 1) k)) (mat x11) (fun k => x12 (ix2 (0 : Fin 1) k)) j := by
  rw [out0_13_eq, pay1_apply]
  have e : (fun k : Fin 520 => Scalar.select (k0_pay6 x0 x1 x2 x3 x4 x5 x6 x7 x8 (ix2 r k))
        (k0_pay4 x0 x1 x2 x3 x4 x5 x6 x7 x8 (ix2 r k)) (k0_pay7 x0 x1 x2 x3 x4 x5 x6 x7 x8 (ix2 r k) - 1)
        + k0_pay5 x0 x1 x2 x3 (ix2 r k))
      = hid1 (fun k => x0 (ix2 r k)) (fun k => x1 (ix2 r k)) (fun k => x2 (ix2 r k)) (fun k => x3 (ix2 r k))
          (mat x4) (mat x5) (mat x6) (mat x7) (fun k => x8 (ix2 (0 : Fin 1) k)) := by
    funext k
    rw [pay6_apply, pay7_apply, pay5_apply, pay4_apply]
    rfl
  rw [e]
  rfl

end Cert.KernelIdeal.EdgeValue

end
-- ==== Proof.LibGatherRows.lean ====
/-
  A row gather read at an index. jnp's `table[idx]` over a table of rows prints as a gather whose start indices are
  an [n × 1] column of row numbers, whose row axis is collapsed and start-indexed and whose column axis is the one
  offset axis, with the index vector on axis 1. Result entry (p, q) is the table's entry in column q of the row that
  position p's index word names: the word read signed and clamped into the table (a negative word reads row 0, one
  past the end reads the last row).
-/
import Idealize.ShloMosaic.PureOps.ShapeOps
import Idealize.ShloMosaic.Lib.ValueIdx

namespace Cert.EdgeMlp

open Idealize.ShloMosaic Idealize.ShloMosaic.ValueIdx

/-- A one-element list read at any position in range gives its element. -/
private theorem getElem_singleton_of_eq {β : Type} (l : List β) (v : β) (hl : l = [v]) (k : Nat) (h : k < l.length) :
    l[k]'h = v := by
  subst hl
  have hk : k = 0 := by simpa using h
  subst hk
  rfl

/-- A ROW GATHER READ AT AN ENTRY (`table[idx]` over a table of N rows of C columns, the start indices an [n × 1]
    column; `d` any dimension numbers of that printed form: the hypotheses are `rfl` at a literal record). Entry (p, q)
    of the result is the table's entry in column q of the row position p's index word names, the word read signed and
    clamped into [0, N - 1]. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  apply Fin.ext
  -- no operand axis is a batching axis; axis 0 is collapsed, axis 1 is the one kept (offset) axis
  have hb : ∀ a : Fin 2, a ∉ d.operandBatchingDims := fun a => by rw [hob]; exact List.not_mem_nil
  match a with
  | ⟨0, _⟩ =>
    -- the row axis: start-indexed, collapsed (slice size 1, no offset): the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p q) idx (0 : Fin 2)).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    -- the start index is read at the result's batch coordinate (its coordinate 0) and component 0 of the index vector
    have hbd : d.batchDims = [(0 : Fin 2)] := by
      unfold GatherDims.batchDims Shape.kept
      rw [hoff]
      show List.filter (fun x : Fin 2 => decide (x ∉ [(1 : Fin 2)])) (List.finRange 2) = [(0 : Fin 2)]
      decide
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_singleton_of_eq _ _ hbd]
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed (start 0), not batching, the one offset axis: the result's coordinate 1
    have h10 : (1 : Fin 2) ∉ [(0 : Fin 2)] := by decide
    have hk : (1 : Fin 2) ∈ d.sKept := by rw [GatherDims.mem_sKept, hcoll]; exact ⟨h10, hb 1⟩
    have hm : (1 : Fin 2) ∉ d.startIndexMap := by rw [hsim]; exact h10
    show (d.operandIdx (ix2 p q) idx (1 : Fin 2)).val = q.val
    simp only [GatherDims.operandIdx, GatherDims.batchCoord_eq_zero _ _ _ (hb 1), GatherDims.start, dif_neg hm,
      Nat.add_zero, Nat.zero_add]
    unfold GatherDims.offCoord
    rw [dif_pos hk]
    -- the one kept operand axis is read at the one offset axis of the result, its coordinate 1
    rw [getElem_singleton_of_eq _ _ hoff]
    rfl

end Cert.EdgeMlp
-- ==== Proof.KerHost.lean ====
/-
  What the region finds in each window's array: the host operations before the launch, read at an index. The two node
  blocks are the two halves of one gather over the concatenated source and destination index words: each word wraps
  when negative, the gather reads the row the wrapped word names (clamped into the table), and a row whose wrapped word
  falls outside the table is replaced by a fill value; with every index word inside the table no row is replaced. The
  first weight matrix is cut into the four row groups that meet the four feature groups; a change of float format is
  the identity on the extended reals; each bias vector is laid out as one row.
-/
import proofs.«422782_j68839735820406_3_alg».proof.Proof.Gen.KernelIdeal.Frame
import proofs.«422782_j68839735820406_3_alg».proof.Proof.Spec
import proofs.«422782_j68839735820406_3_alg».proof.Proof.LibGatherRows
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

noncomputable section

namespace Cert.KernelIdeal.EdgeHost

open Cert.KernelIdeal Cert.KernelIdeal.Gen Idealize.ShloMosaic Idealize.ShloMosaic.TcCoe Idealize.SL.Sem
open Idealize.ShloMosaic.ValueIdx Cert.EdgeMlp

/-! ## Index words inside the table -/

/-- A word inside the table is not negative, so it does not wrap. -/
theorem wrap_of_inTable (w : BitVec 32) (h : InTable w) : wrap w = w := by
  have h0 : IntOp.cmpi .slt w 0#32 = 0#1 := by
    unfold IntOp.cmpi
    have : w.slt 0#32 = false := by
      simp only [BitVec.slt, BitVec.toInt_zero, decide_eq_false_iff_not, not_lt]
      exact h.1
    rw [this]; rfl
  unfold wrap
  rw [h0]
  exact select_zero _ _

/-- A word inside the table passes the lower test of the in-table mask. -/
theorem sge_zero_of_inTable (w : BitVec 32) (h : InTable w) : IntOp.cmpi .sge w 0#32 = 1#1 := by
  unfold IntOp.cmpi
  have : (0#32 : BitVec 32).sle w = true := by
    simp only [BitVec.sle, BitVec.toInt_zero, decide_eq_true_eq]
    exact h.1
  rw [this]; rfl

/-- And the upper test. -/
theorem sle_last_of_inTable (w : BitVec 32) (h : InTable w) : IntOp.cmpi .sle w 49999#32 = 1#1 := by
  unfold IntOp.cmpi
  have e : (49999#32 : BitVec 32).toInt = 49999 := by decide
  have : w.sle 49999#32 = true := by
    simp only [BitVec.sle, e, decide_eq_true_eq]
    have := h.2; omega
  rw [this]; rfl

/-! ## An and-reduction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi (1#1 : BitVec 1) 1#1 = 1#1 := by decide
    rw [List.foldl_cons, hf a, h1]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## The host term of the node blocks, piece by piece, over any index array and node table -/

/-- The index words in one line: the index array's first row, then its second. -/
def catIdx (I : IVec S2x250000 32) : IVec S500000 32 :=
  concatenate S500000 0
    [⟨S250000, shapeCast S250000 (extractStridedSlice S1x250000 ![0, 0] I slices_S2x250000_S1x250000_0_0) shapeCasts_S1x250000_S250000⟩,
     ⟨S250000, shapeCast S250000 (extractStridedSlice S1x250000 ![1, 0] I slices_S2x250000_S1x250000_1_0) shapeCasts_S1x250000_S250000⟩]
    concatenates_S250000_S250000_S500000_d0

/-- Every word wrapped when negative. -/
def wrapIdx (w : IVec S500000 32) : IVec S500000 32 :=
  select (cmpi .slt w (broadcastInDim S500000 ![] bcast_S_S500000 (constantI S_ 32 0#32)))
    (addi w (broadcastInDim S500000 ![] bcast_S_S500000 (constantI S_ 32 50000#32))) w

/-- The words as a column of row numbers. -/
def colIdx (w : IVec S500000 32) : IVec S500000x1 32 := broadcastInDim S500000x1 ![0] bcast_S500000_S500000x1_0 w

/-- The in-table mask: per row, the conjunction over the one column of "not below 0" and "not above 49999". -/
def inMask (cw : IVec S500000x1 32) : IVec S500000 1 :=
  Host.reduce IntOp.andi
    (andi (cmpi .sge cw (broadcastInDim S500000x1 ![] bcast_S_S500000x1 (constantI S_ 32 0#32)))
      (cmpi .sle cw (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- The gathered rows, a row outside the table replaced by the fill value. -/
def gathered (X : FVec Ideal S50000x128 .f32) (cw : IVec S500000x1 32) : FVec Ideal S500000x128 .f32 :=
  select (broadcastInDim S500000x128 ![0] bcast_S500000_S500000x128_0 (inMask cw))
    (Host.gather gather_S50000x128_S500000x1_S500000x128_1_0_n_n_0_1_1128 X cw)
    (broadcastInDim S500000x128 ![] bcast_S_S500000x128 (constant (F := Ideal) S_ .f32 0x7FC00000#32))

/-- All 500000 node rows: the source nodes' then the destination nodes'. -/
def nodeRows (X : FVec Ideal S50000x128 .f32) (I : IVec S2x250000 32) : FVec Ideal S500000x128 .f32 :=
  gathered X (colIdx (wrapIdx (catIdx I)))

/-! ## The pieces read at an index -/

/-- Position e of the line, in its first half, is the first row's word e. -/
theorem catIdx_lo (I : IVec S2x250000 32) (e : Fin 250000) (p : Fin 500000) (hp : p.val = e.val) :
    catIdx I (ix1 p) = I (ix2 (0 : Fin 2) e) := by
  unfold catIdx
  refine (concatenate_pair_apply_left (t := S500000) (s₁ := S250000) (s₂ := S250000) (0 : Fin 1) _ _
    concatenates_S250000_S250000_S500000_d0 (ix1 p) (rfl : S250000.rank = S500000.rank) (ix1 e)
    (fun b => by match b with | ⟨0, _⟩ => exact hp.symm)).trans ?_
  refine (shapeCast_1a_a_apply _ _ e).trans ?_
  exact slice2_axis0_apply 0 I _ (0 : Fin 1) e (0 : Fin 2) rfl

/-- Position 250000 + e is the second row's word e. -/
theorem catIdx_hi (I : IVec S2x250000 32) (e : Fin 250000) (p : Fin 500000) (hp : p.val = 250000 + e.val) :
    catIdx I (ix1 p) = I (ix2 (1 : Fin 2) e) := by
  unfold catIdx
  refine (concatenate_pair_apply_right (t := S500000) (s₁ := S250000) (s₂ := S250000) (0 : Fin 1) _ _
    concatenates_S250000_S250000_S500000_d0 (ix1 p) (rfl : S250000.rank = S500000.rank) (rfl : S250000.rank = S500000.rank) (ix1 e)
    (fun b hb => by match b with | ⟨0, _⟩ => exact absurd rfl hb)
    (by show e.val + 250000 = p.val; omega)).trans ?_
  refine (shapeCast_1a_a_apply _ _ e).trans ?_
  exact slice2_axis0_apply 1 I _ (0 : Fin 1) e (1 : Fin 2) rfl

/-- The wrapped line at a position is the wrap of the word there. -/
theorem wrapIdx_apply (w : IVec S500000 32) (i : S500000.Idx) : wrapIdx w i = wrap (w i) := rfl

/-- The column at row p is the line at p. -/
theorem colIdx_apply (w : IVec S500000 32) (p : Fin 500000) (u : Fin 1) : colIdx w (ix2 p u) = w (ix1 p) := by
  unfold colIdx
  exact broadcastInDim_apply _ _ w (ix2 p u) (ix1 p) (fun a => by
    match a with
    | ⟨0, _⟩ => exact (if_neg (show ¬ (500000 : ℕ) = 1 by decide)).symm)

/-- With every word of the column inside the table the mask is 1 at every row. -/
theorem inMask_ones (cw : IVec S500000x1 32) (h : ∀ i, InTable (cw i)) (p : S500000.Idx) : inMask cw p = 1#1 := by
  unfold inMask
  refine reduce_andi_ones _ _ _ _ (fun i => ?_) rfl p
  show IntOp.andi (IntOp.cmpi .sge (cw i) 0#32) (IntOp.cmpi .sle (cw i) 49999#32) = 1#1
  rw [sge_zero_of_inTable _ (h i), sle_last_of_inTable _ (h i)]
  decide

/-- Then no row is replaced: entry (p, k) is the table's entry k of the row that the column's word p names, read signed
    and clamped into the table. -/
theorem gathered_apply (X : FVec Ideal S50000x128 .f32) (cw : IVec S500000x1 32) (h : ∀ i, InTable (cw i))
    (p : Fin 500000) (k : Fin 128) :
    gathered X cw (ix2 p k)
      = X (ix2 (⟨min (cw (ix2 p (0 : Fin 1))).toInt.toNat 49999, by omega⟩ : Fin 50000) k) := by
  unfold gathered
  rw [select_apply]
  have hm : broadcastInDim S500000x128 ![0] bcast_S500000_S500000x128_0 (inMask cw) (ix2 p k) = 1#1 := inMask_ones cw h _
  rw [hm, select_one]
  exact gather_rows gather_S50000x128_S500000x1_S500000x128_1_0_n_n_0_1_1128 rfl rfl rfl rfl rfl X cw p k (by decide)

/-- Row p of the node rows is the table's row that the line's word p names. -/
theorem nodeRows_apply (X : FVec Ideal S50000x128 .f32) (I : IVec S2x250000 32)
    (hw : ∀ p : Fin 500000, InTable (catIdx I (ix1 p))) (p : Fin 500000) (k : Fin 128) :
    nodeRows X I (ix2 p k) = X (ix2 (node (catIdx I (ix1 p))) k) := by
  have hc : ∀ (q : Fin 500000) (u : Fin 1), colIdx (wrapIdx (catIdx I)) (ix2 q u) = catIdx I (ix1 q) := fun q u => by
    rw [colIdx_apply, wrapIdx_apply, wrap_of_inTable _ (hw q)]
  have hT : ∀ i, InTable (colIdx (wrapIdx (catIdx I)) i) := fun i => by
    obtain ⟨q, u, rfl⟩ : ∃ (q : Fin 500000) (u : Fin 1), i = ix2 q u := ⟨i 0, i 1, eq_ix2 i⟩
    rw [hc]; exact hw _
  refine (gathered_apply X _ hT p k).trans ?_
  refine congrArg (fun r : Fin 50000 => X (ix2 r k)) (Fin.ext ?_)
  show min (colIdx (wrapIdx (catIdx I)) (ix2 p (0 : Fin 1))).toInt.toNat 49999 = min (wrap (catIdx I (ix1 p))).toInt.toNat 49999
  rw [hc, wrap_of_inTable _ (hw p)]

/-- With every word of the index array inside the table, so is every word of the line. -/
theorem catIdx_inTable (I : IVec S2x250000 32) (hI : ∀ i, InTable (I i)) (p : Fin 500000) : InTable (catIdx I (ix1 p)) := by
  by_cases hp : p.val < 250000
  · rw [catIdx_lo I ⟨p.val, hp⟩ p rfl]; exact hI _
  · rw [catIdx_hi I ⟨p.val - 250000, by omega⟩ p (by show p.val = 250000 + (p.val - 250000); omega)]; exact hI _

/-! ## The windows' arrays -/

variable (m : (ℓ : Loc nD τ sig) → Buf (Elt Ideal) ℓ)

attribute [local irreducible] Host.gather concatenate Host.reduce in
set_option maxHeartbeats 1600000 in
/-- The source-node block: row e is the node table's row named by edge e's first index word. -/
theorem arr0 (c : Dev nD) (hI : ∀ i, InTable ((m ((c : Thread nD τ).loc main_arg1) : IVec S2x250000 32) i))
    (e : Fin 250000) (k : Fin 128) :
    (V m c main_call0_v6 : S250000x128.Idx → EReal) (ix2 e k)
      = (m ((c : Thread nD τ).loc main_arg0) : S50000x128.Idx → EReal)
          (ix2 (node ((m ((c : Thread nD τ).loc main_arg1) : IVec S2x250000 32) (ix2 (0 : Fin 2) e))) k) := by
  have hV : (V m c main_call0_v6 : S250000x128.Idx → EReal)
      = (extractStridedSlice S250000x128 ![0, 0]
          (nodeRows (m ((c : Thread nD τ).loc main_arg0) : FVec Ideal S50000x128 .f32)
            (m ((c : Thread nD τ).loc main_arg1) : IVec S2x250000 32))
          slices_S500000x128_S250000x128_0_0 : S250000x128.Idx → EReal) := by
    dsimp only [Gen.V, Gen.hostOps0]; after_results_simp
    repeat (first
      | rw [StableHlo.reshape_result] | rw [StableHlo.unary_result]
      | (rw [StableHlo.reshape_result_ne]; rotate_left; decide)
      | (rw [StableHlo.unary_result_ne]; rotate_left; decide))
    rfl
  rw [hV]
  refine (slice2_axis0_apply 0 _ _ e k (⟨e.val, by omega⟩ : Fin 500000) (Nat.zero_add _).symm).trans ?_
  rw [nodeRows_apply _ _ (catIdx_inTable _ hI), catIdx_lo _ e _ rfl]

attribute [local irreducible] Host.gather concatenate Host.reduce in
set_option maxHeartbeats 1600000 in
/-- The destination-node block: row e is the node table's row named by edge e's second index word. -/
theorem arr1 (c : Dev nD) (hI : ∀ i, InTable ((m ((c : Thread nD τ).loc main_arg1) : IVec S2x250000 32) i))
    (e : Fin 250000) (k : Fin 128) :
    (V m c main_call0_v7 : S250000x128.Idx → EReal) (ix2 e k)
      = (m ((c : Thread nD τ).loc main_arg0) : S50000x128.Idx → EReal)
          (ix2 (node ((m ((c : Thread nD τ).loc main_arg1) : IVec S2x250000 32) (ix2 (1 : Fin 2) e))) k) := by
  have hV : (V m c main_call0_v7 : S250000x128.Idx → EReal)
      = (extractStridedSlice S250000x128 ![250000, 0]
          (nodeRows (m ((c : Thread nD τ).loc main_arg0) : FVec Ideal S50000x128 .f32)
            (m ((c : Thread nD τ).loc main_arg1) : IVec S2x250000 32))
          slices_S500000x128_S250000x128_250000_0 : S250000x128.Idx → EReal) := by
    dsimp only [Gen.V, Gen.hostOps0]; after_results_simp
    repeat (first
      | rw [StableHlo.reshape_result] | rw [StableHlo.unary_result]
      | (rw [StableHlo.reshape_result_ne]; rotate_left; decide)
      | (rw [StableHlo.unary_result_ne]; rotate_left; decide))
    rfl
  rw [hV]
  refine (slice2_axis0_apply 250000 _ _ e k (⟨250000 + e.val, by omega⟩ : Fin 500000) rfl).trans ?_
  rw [nodeRows_apply _ _ (catIdx_inTable _ hI), catIdx_hi _ e _ rfl]

/-- The first weight matrix's rows for the source-node features. -/
theorem arr4 (c : Dev nD) (k : Fin 128) (j : Fin 520) :
    (V m c main_call0_v12 : S128x520.Idx → EReal) (ix2 k j)
      = rowsA (mat (m ((c : Thread nD τ).loc main_arg4) : S520x520.Idx → EReal)) k j := by
  have e : (V m c main_call0_v12 : S128x520.Idx → EReal)
      = (truncf (F := Ideal) .bf16 (extractStridedSlice S128x520 ![0, 0] (m ((c : Thread nD τ).loc main_arg4) : S520x520.Idx → EReal)
          slices_S520x520_S128x520_0_0 : FVec Ideal S128x520 .f32) bitsLt_bf16_f32 : S128x520.Idx → EReal) := by
    dsimp only [Gen.V, Gen.hostOps0]; after_results; rfl
  rw [e, truncf_apply]
  exact slice2_axis0_apply 0 _ _ k j _ (Nat.zero_add _).symm

/-- Its rows for the destination-node features. -/
theorem arr5 (c : Dev nD) (k : Fin 128) (j : Fin 520) :
    (V m c main_call0_v13 : S128x520.Idx → EReal) (ix2 k j)
      = rowsB (mat (m ((c : Thread nD τ).loc main_arg4) : S520x520.Idx → EReal)) k j := by
  have e : (V m c main_call0_v13 : S128x520.Idx → EReal)
      = (truncf (F := Ideal) .bf16 (extractStridedSlice S128x520 ![128, 0] (m ((c : Thread nD τ).loc main_arg4) : S520x520.Idx → EReal)
          slices_S520x520_S128x520_128_0 : FVec Ideal S128x520 .f32) bitsLt_bf16_f32 : S128x520.Idx → EReal) := by
    dsimp only [Gen.V, Gen.hostOps0]; after_results; rfl
  rw [e, truncf_apply]
  exact slice2_axis0_apply 128 _ _ k j _ rfl

/-- Its rows for the edge embedding. -/
theorem arr6 (c : Dev nD) (k : Fin 200) (j : Fin 520) :
    (V m c main_call0_v14 : S200x520.Idx → EReal) (ix2 k j)
      = rowsC (mat (m ((c : Thread nD τ).loc main_arg4) : S520x520.Idx → EReal)) k j := by
  have e : (V m c main_call0_v14 : S200x520.Idx → EReal)
      = (truncf (F := Ideal) .bf16 (extractStridedSlice S200x520 ![256, 0] (m ((c : Thread nD τ).loc main_arg4) : S520x520.Idx → EReal)
          slices_S520x520_S200x520_256_0 : FVec Ideal S200x520 .f32) bitsLt_bf16_f32 : S200x520.Idx → EReal) := by
    dsimp only [Gen.V, Gen.hostOps0]; after_results; rfl
  rw [e, truncf_apply]
  exact slice2_axis0_apply 256 _ _ k j _ rfl

/-- Its rows for the static features. -/
theorem arr7 (c : Dev nD) (k : Fin 64) (j : Fin 520) :
    (V m c main_call0_v15 : S64x520.Idx → EReal) (ix2 k j)
      = rowsD (mat (m ((c : Thread nD τ).loc main_arg4) : S520x520.Idx → EReal)) k j := by
  have e : (V m c main_call0_v15 : S64x520.Idx → EReal)
      = (truncf (F := Ideal) .bf16 (extractStridedSlice S64x520 ![456, 0] (m ((c : Thread nD τ).loc main_arg4) : S520x520.Idx → EReal)
          slices_S520x520_S64x520_456_0 : FVec Ideal S64x520 .f32) bitsLt_bf16_f32 : S64x520.Idx → EReal) := by
    dsimp only [Gen.V, Gen.hostOps0]; after_results; rfl
  rw [e, truncf_apply]
  exact slice2_axis0_apply 456 _ _ k j _ rfl

/-- The first bias as one row. -/
theorem arr8 (c : Dev nD) (j : Fin 520) :
    (V m c main_call0_v18 : S1x520.Idx → EReal) (ix2 (0 : Fin 1) j)
      = vec (m ((c : Thread nD τ).loc main_arg5) : S520.Idx → EReal) j := by
  have e : (V m c main_call0_v18 : S1x520.Idx → EReal)
      = shapeCast S1x520 (m ((c : Thread nD τ).loc main_arg5) : S520.Idx → EReal) shapeCasts_S520_S1x520 := by
    dsimp only [Gen.V, Gen.hostOps0]; after_results; rfl
  rw [e]
  exact shapeCast_a_1a_apply _ _ _ _

/-- The second weight matrix. -/
theorem arr9 (c : Dev nD) (k : Fin 520) (j : Fin 520) :
    (V m c main_call0_v16 : S520x520.Idx → EReal) (ix2 k j)
      = mat (m ((c : Thread nD τ).loc main_arg6) : S520x520.Idx → EReal) k j := by
  have e : (V m c main_call0_v16 : S520x520.Idx → EReal)
      = (truncf (F := Ideal) .bf16 (m ((c : Thread nD τ).loc main_arg6) : FVec Ideal S520x520 .f32) bitsLt_bf16_f32 : S520x520.Idx → EReal) := by
    dsimp only [Gen.V, Gen.hostOps0]; after_results; rfl
  rw [e, truncf_apply]

/-- The second bias as one row. -/
theorem arr10 (c : Dev nD) (j : Fin 520) :
    (V m c main_call0_v19 : S1x520.Idx → EReal) (ix2 (0 : Fin 1) j)
      = vec (m ((c : Thread nD τ).loc main_arg7) : S520.Idx → EReal) j := by
  have e : (V m c main_call0_v19 : S1x520.Idx → EReal)
      = shapeCast S1x520 (m ((c : Thread nD τ).loc main_arg7) : S520.Idx → EReal) shapeCasts_S520_S1x520 := by
    dsimp only [Gen.V, Gen.hostOps0]; after_results; rfl
  rw [e]
  exact shapeCast_a_1a_apply _ _ _ _

/-- The read-out matrix. -/
theorem arr11 (c : Dev nD) (k : Fin 520) (j : Fin 8) :
    (V m c main_call0_v17 : S520x8.Idx → EReal) (ix2 k j)
      = mat (m ((c : Thread nD τ).loc main_arg8) : S520x8.Idx → EReal) k j := by
  have e : (V m c main_call0_v17 : S520x8.Idx → EReal)
      = (truncf (F := Ideal) .bf16 (m ((c : Thread nD τ).loc main_arg8) : FVec Ideal S520x8 .f32) bitsLt_bf16_f32 : S520x8.Idx → EReal) := by
    dsimp only [Gen.V, Gen.hostOps0]; after_results; rfl
  rw [e, truncf_apply]

/-- The read-out bias as one row. -/
theorem arr12 (c : Dev nD) (j : Fin 8) :
    (V m c main_call0_v20 : S1x8.Idx → EReal) (ix2 (0 : Fin 1) j)
      = vec (m ((c : Thread nD τ).loc main_arg9) : S8.Idx → EReal) j := by
  have e : (V m c main_call0_v20 : S1x8.Idx → EReal)
      = shapeCast S1x8 (m ((c : Thread nD τ).loc main_arg9) : S8.Idx → EReal) shapeCasts_S8_S1x8 := by
    dsimp only [Gen.V, Gen.hostOps0]; after_results; rfl
  rw [e]
  exact shapeCast_a_1a_apply _ _ _ _

end Cert.KernelIdeal.EdgeHost

end
-- ==== Proof.KerFinal.lean ====
/-
  From the blocks to the whole array. What point t writes back is, entry by entry, the network on the rows it staged,
  which are the rows of edge 2000·t + r; so it is block t of the one whole-array function G. The 125 blocks cover the
  output array (edge e lies in block e / 2000), so the array ends holding G.
-/
import proofs.«422782_j68839735820406_3_alg».proof.Proof.Gen.KernelIdeal.Value
import proofs.«422782_j68839735820406_3_alg».proof.Proof.Spec
import proofs.«422782_j68839735820406_3_alg».proof.Proof.KerBlocks
import proofs.«422782_j68839735820406_3_alg».proof.Proof.KerPayload
import proofs.«422782_j68839735820406_3_alg».proof.Proof.KerHost
import Idealize.ShloMosaic.Lib.Pipeline.Value
import Idealize.ShloMosaic.Lib.ValueIdx

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx Cert.EdgeMlp Cert.KernelIdeal.EdgeHost
open Idealize.ShloMosaic.Pipeline (Dat)

variable (m : (ℓ : Loc nD τ sig) → Buf (Elt Ideal) ℓ)

/-! ## What a point writes back -/

/-- Row r of point t's block of an array laid out like the output is row 2000·t + r of the array. -/
theorem read13 (A : S250000x8.Idx → EReal) (t : Fin cfg0.N) (r : Fin 2000) (j : Fin 8) :
    ((cfg0.win 13).blk t).view.read (Elt Ideal) A (ix2 r j) = A (ix2 (edgeAt t r) j) :=
  congrArg A (emb13 t r j)

/-- The output window's block is whole at every point: what is written back is the buffer's contents. -/
theorem cut13 (B : Vec Ideal S2000x8 .f32) (t : Fin cfg0.N) (r : Fin 2000) (j : Fin 8) :
    (cfg0.win 13).cut (grid0.coords t) B (ix2 r j) = B (ix2 r j) := rfl

/-- What point t writes back is block t of G of the argument arrays, when every index word is inside the table. -/
theorem flushed_eq (c : Dev nD) (hI : ∀ i, InTable ((m ((c : Thread nD τ).loc main_arg1) : IVec S2x250000 32) i))
    (t : Fin cfg0.N) :
    (dats m 0 c).flushed 13 t
      = ((cfg0.win 13).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.Value.flushed13]
  funext y
  obtain ⟨r, j, rfl⟩ : ∃ (r : Fin 2000) (j : Fin 8), y = ix2 r j := ⟨y 0, y 1, eq_ix2 y⟩
  refine Eq.trans (cut13 _ t r j) ?_
  refine Eq.trans ?_ (read13 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) t r j).symm
  refine (out0_13_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) r j).trans ?_
  have h0 : (fun k => iblk m c 0 t (ix2 r k)) = fun k : Fin 128 => (m ((c : Thread nD τ).loc main_arg0) : S50000x128.Idx → EReal)
      (ix2 (node ((m ((c : Thread nD τ).loc main_arg1) : IVec S2x250000 32) (ix2 (0 : Fin 2) (edgeAt t r)))) k) :=
    funext fun k => (blk0 m c t r k).trans (arr0 m c hI (edgeAt t r) k)
  have h1 : (fun k => iblk m c 1 t (ix2 r k)) = fun k : Fin 128 => (m ((c : Thread nD τ).loc main_arg0) : S50000x128.Idx → EReal)
      (ix2 (node ((m ((c : Thread nD τ).loc main_arg1) : IVec S2x250000 32) (ix2 (1 : Fin 2) (edgeAt t r)))) k) :=
    funext fun k => (blk1 m c t r k).trans (arr1 m c hI (edgeAt t r) k)
  have h2 : (fun k => iblk m c 2 t (ix2 r k)) = fun k : Fin 200 => (m ((c : Thread nD τ).loc main_arg2) : S250000x200.Idx → EReal) (ix2 (edgeAt t r) k) :=
    funext fun k => (blk2 m c t r k).trans (congrFun (V_main_arg2 m c) _)
  have h3 : (fun k => iblk m c 3 t (ix2 r k)) = fun k : Fin 64 => (m ((c : Thread nD τ).loc main_arg3) : S250000x64.Idx → EReal) (ix2 (edgeAt t r) k) :=
    funext fun k => (blk3 m c t r k).trans (congrFun (V_main_arg3 m c) _)
  have h4 : mat (iblk m c 4 t) = rowsA (mat (m ((c : Thread nD τ).loc main_arg4) : S520x520.Idx → EReal)) :=
    funext fun k => funext fun j' => (blk4 m c t k j').trans (arr4 m c k j')
  have h5 : mat (iblk m c 5 t) = rowsB (mat (m ((c : Thread nD τ).loc main_arg4) : S520x520.Idx → EReal)) :=
    funext fun k => funext fun j' => (blk5 m c t k j').trans (arr5 m c k j')
  have h6 : mat (iblk m c 6 t) = rowsC (mat (m ((c : Thread nD τ).loc main_arg4) : S520x520.Idx → EReal)) :=
    funext fun k => funext fun j' => (blk6 m c t k j').trans (arr6 m c k j')
  have h7 : mat (iblk m c 7 t) = rowsD (mat (m ((c : Thread nD τ).loc main_arg4) : S520x520.Idx → EReal)) :=
    funext fun k => funext fun j' => (blk7 m c t k j').trans (arr7 m c k j')
  have h8 : (fun k => iblk m c 8 t (ix2 (0 : Fin 1) k)) = vec (m ((c : Thread nD τ).loc main_arg5) : S520.Idx → EReal) :=
    funext fun k => (blk8 m c t 0 k).trans (arr8 m c k)
  have h9 : mat (iblk m c 9 t) = mat (m ((c : Thread nD τ).loc main_arg6) : S520x520.Idx → EReal) :=
    funext fun k => funext fun j' => (blk9 m c t k j').trans (arr9 m c k j')
  have h10 : (fun k => iblk m c 10 t (ix2 (0 : Fin 1) k)) = vec (m ((c : Thread nD τ).loc main_arg7) : S520.Idx → EReal) :=
    funext fun k => (blk10 m c t 0 k).trans (arr10 m c k)
  have h11 : mat (iblk m c 11 t) = mat (m ((c : Thread nD τ).loc main_arg8) : S520x8.Idx → EReal) :=
    funext fun k => funext fun j' => (blk11 m c t k j').trans (arr11 m c k j')
  have h12 : (fun k => iblk m c 12 t (ix2 (0 : Fin 1) k)) = vec (m ((c : Thread nD τ).loc main_arg9) : S8.Idx → EReal) :=
    funext fun k => (blk12 m c t 0 k).trans (arr12 m c k)
  rw [h0, h1, h2, h3, h4, h5, h6, h7, h8, h9, h10, h11, h12]
  rfl

/-! ## The cover, and the array after the run -/

/-- Every entry of the output array lies in the block of the point its edge's row block belongs to. -/
theorem cover (i : S250000x8.Idx) :
    ∃ t : Fin cfg0.N, (cfg0.win 13).flush t = true ∧ i ∈ ((cfg0.win 13).blk t).view.set := by
  have hi0 : (i 0).val < 250000 := idx2_lt0 i
  have hi1 : (i 1).val < 8 := idx2_lt1 i
  have hN : cfg0.N = 125 := N_0
  have hlt : (i 0).val / 2000 < cfg0.N := by omega
  obtain ⟨e0, e1⟩ := idx_row13 ⟨(i 0).val / 2000, hlt⟩
  have e0' : win0_13.index ⟨(i 0).val / 2000, hlt⟩ (0 : Fin 2) = (i 0).val / 2000 := e0
  refine ⟨⟨(i 0).val / 2000, hlt⟩, flush0_13 _, ?_⟩
  show i ∈ ((View.whole main_v0).slice (win0_13.rect ⟨(i 0).val / 2000, hlt⟩)).set
  rw [View.set_slice_whole, Rect.mem_set_unit]
  intro a
  match a with
  | ⟨0, _⟩ =>
    show win0_13.index ⟨(i 0).val / 2000, hlt⟩ (0 : Fin 2) * 2000 ≤ (i 0).val
      ∧ (i 0).val < win0_13.index ⟨(i 0).val / 2000, hlt⟩ (0 : Fin 2) * 2000 + 2000
    omega
  | ⟨1, _⟩ =>
    show win0_13.index ⟨(i 0).val / 2000, hlt⟩ (1 : Fin 2) * 8 ≤ (i 1).val
      ∧ (i 1).val < win0_13.index ⟨(i 0).val / 2000, hlt⟩ (1 : Fin 2) * 8 + 8
    omega

/-- The output array after the run is G of the argument arrays, when every index word is inside the table. -/
theorem final (c : Dev nD) (hI : ∀ i, InTable ((m ((c : Thread nD τ).loc main_arg1) : IVec S2x250000 32) i)) :
    (dats m 0 c).arrAt 13 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 13 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed_eq m c hI t) cover

end Cert.KernelIdeal.EdgeValue

end
-- ==== Proof.PreRange.lean ====
/-
  What the precondition says of the index input: its last conjunct is "every entry of the edge-index array is at least
  0 and below 50000", an all-reduction of the two word comparisons' conjunction; the conjunction of all the
  precondition's parts is all ones only if that part is, and an all-reduction by `and` from `true` is one only if every
  entry is.
-/
import proofs.«422782_j68839735820406_3_alg».proof.Proof.Gen.Pre_finite_inputs
import proofs.«422782_j68839735820406_3_alg».proof.Proof.Spec
import Idealize.ShloMosaic.Lib.ReduceAll

noncomputable section

namespace Cert.Pre_finite_inputs.EdgeRange

open Cert.Pre_finite_inputs Cert.Pre_finite_inputs.Gen Idealize.ShloMosaic Idealize.ShloMosaic.ValueIdx Cert.EdgeMlp

/-- The rank-0 shape has one index. -/
instance : Subsingleton S_.Idx := ⟨fun _ _ => funext fun d => d.elim0⟩

/-- One word: if both signed comparisons, `0 ≤ w` and `w < 50000`, answer 1, the word read signed lies in the table. -/
theorem inTable_of_bits (w : BitVec 32)
    (h : IntOp.andi (IntOp.cmpi .sge w 0#32) (IntOp.cmpi .slt w 50000#32) = 1#1) : InTable w := by
  obtain ⟨h1, h2⟩ := IntOp.andi_eq_one.1 h
  rw [IntOp.cmpi_sge, show (0#32 : BitVec 32).toInt = 0 from by decide] at h1
  rw [IntOp.cmpi_slt, show (50000#32 : BitVec 32).toInt = 50000 from by decide] at h2
  exact ⟨h1, h2⟩

/-- The precondition is a conjunction whose last part is the all-reduction of the range test on the index input; the
    other parts (the nine finiteness tests) stay unnamed. -/
theorem fn_split (a0 : FVec Ideal S50000x128 .f32) (a1 : IVec S2x250000 32) (a2 : FVec Ideal S250000x200 .f32)
    (a3 : FVec Ideal S250000x64 .f32) (a4 : FVec Ideal S520x520 .f32) (a5 : FVec Ideal S520 .f32)
    (a6 : FVec Ideal S520x520 .f32) (a7 : FVec Ideal S520 .f32) (a8 : FVec Ideal S520x8 .f32) (a9 : FVec Ideal S8 .f32) :
    ∃ rest : IVec S_ 1, Cert.Pre_finite_inputs.fn (F := Ideal) a0 a1 a2 a3 a4 a5 a6 a7 a8 a9
      = andi rest (Host.reduce IntOp.andi
          (andi (cmpi .sge a1 (broadcastInDim S2x250000 ![] Facts.bcast_S_S2x250000 (constantI S_ 32 0#32)))
            (cmpi .slt a1 (broadcastInDim S2x250000 ![] Facts.bcast_S_S2x250000 (constantI S_ 32 50000#32))))
          (constantI S_ 1 1#1) Facts.reducesTo_S2x250000_S_d0_1 Facts.h_S_) :=
  ⟨_, rfl⟩

/-- Under the precondition every edge-index word lies inside the node table. -/
theorem inTable_of_pre (a0 : FVec Ideal S50000x128 .f32) (a1 : IVec S2x250000 32) (a2 : FVec Ideal S250000x200 .f32)
    (a3 : FVec Ideal S250000x64 .f32) (a4 : FVec Ideal S520x520 .f32) (a5 : FVec Ideal S520 .f32)
    (a6 : FVec Ideal S520x520 .f32) (a7 : FVec Ideal S520 .f32) (a8 : FVec Ideal S520x8 .f32) (a9 : FVec Ideal S8 .f32)
    (h : Cert.Pre_finite_inputs.fn (F := Ideal) a0 a1 a2 a3 a4 a5 a6 a7 a8 a9 = fun _ => 1#1) :
    ∀ i : S2x250000.Idx, InTable (a1 i) := by
  intro i
  obtain ⟨rest, e⟩ := fn_split a0 a1 a2 a3 a4 a5 a6 a7 a8 a9
  -- the scalar equation: the whole conjunction is 1
  have h0 := congrFun (e.symm.trans h) ix0
  -- so its last part, the all-reduction, is 1
  have h1 := (IntOp.andi_eq_one.1 h0).2
  -- so the range test is 1 at every index, and there it is the two comparisons of the word with the two constants
  exact inTable_of_bits (a1 i) (Host.reduce_andi_all _ _ _ _ _ h1 i)

end Cert.Pre_finite_inputs.EdgeRange

end
-- ==== Proof.RefTerm.lean ====
/-
  The reference program's result as one whole-array term of its ten arguments, built from small named pieces.

  An edge's two end nodes are named by the two rows of the index table. A row is sliced out and flattened, each word
  wrapped (a negative word has the table's 50000 rows added), the words laid out as a one-column matrix of start
  indices, and the node table's rows gathered at them. The four feature groups are concatenated along the feature
  axis; two residual layers h ↦ elu (h · W + b) + h follow, then the linear read-out.
-/
import proofs.«422782_j68839735820406_3_alg».proof.Proof.Gen.ReferenceIdeal
import Idealize.ShloMosaic.PureOps.Ideal

noncomputable section

namespace Cert.ReferenceIdeal.EdgeRun

open Cert.ReferenceIdeal Cert.ReferenceIdeal.Gen Idealize.ShloMosaic

/-- Row `off 0` of the index table, flattened to a vector of 250000 words. -/
def idxRow (I : IVec S2x250000 32) (off : Fin 2 → Nat) (h : S2x250000.Slices off S1x250000) : IVec S250000 32 :=
  shapeCast S250000 (extractStridedSlice S1x250000 off I h) shapeCasts_S1x250000_S250000

/-- Negative words wrap by the table's 50000 rows: where `w < 0`, `w + 50000`; elsewhere `w`. -/
def wrapV (w : IVec S250000 32) : IVec S250000 32 :=
  select (cmpi .slt w (broadcastInDim S250000 ![] bcast_S_S250000 (constantI S_ 32 0#32)))
    (addi w (broadcastInDim S250000 ![] bcast_S_S250000 (constantI S_ 32 50000#32))) w

/-- One endpoint's gathered rows: the index row sliced out and flattened, wrapped, laid out as a column of start
    indices, and the node table's rows gathered there. -/
def endRows (X : FVec Ideal S50000x128 .f32) (I : IVec S2x250000 32) (off : Fin 2 → Nat)
    (h : S2x250000.Slices off S1x250000) : FVec Ideal S250000x128 .f32 :=
  Host.gather gather_S50000x128_S250000x1_S250000x128_1_0_n_n_0_1_1128 X
    (broadcastInDim S250000x1 ![0] bcast_S250000_S250000x1_0 (wrapV (idxRow I off h)))

/-- The whole-array zero and one. -/
def zeros : FVec Ideal S250000x520 .f32 :=
  broadcastInDim S250000x520 ![] bcast_S_S250000x520 (constant (F := Ideal) S_ .f32 0x00000000#32)
def ones : FVec Ideal S250000x520 .f32 :=
  broadcastInDim S250000x520 ![] bcast_S_S250000x520 (constant (F := Ideal) S_ .f32 0x3F800000#32)

/-- ELU as the reference spells it: `x` where `x > 0`, else `1 · expm1 x'` with `x'` the value `0` where `x > 0` and
    `x` elsewhere (the inner selection keeps the exponential's argument non-positive). -/
def eluR (x : FVec Ideal S250000x520 .f32) : FVec Ideal S250000x520 .f32 :=
  select (cmpf .ogt x zeros) x
    (mulf ones (Host.expm1 (select (cmpf .ogt x zeros)
      (broadcastInDim S250000x520 ![] bcast_S_S250000x520 (id (constant (F := Ideal) S_ .f32 0x00000000#32))) x)))

/-- A residual layer on the whole array: `elu (h · W + b) + h`, the bias broadcast along the rows. -/
def layerR (h : FVec Ideal S250000x520 .f32) (W : FVec Ideal S520x520 .f32) (b : FVec Ideal S520 .f32) :
    FVec Ideal S250000x520 .f32 :=
  addf (eluR (addf (Host.dotGeneral dot_S250000x520_S520x520_S250000x520_1_0_0_1_n_n none h W)
    (broadcastInDim S250000x520 ![0, 1] bcast_S1x520_S250000x520_0_1 (broadcastInDim S1x520 ![1] bcast_S520_S1x520_1 b)))) h

/-- The four feature groups side by side: source rows, destination rows, edge embedding, static features. -/
def catR (X : FVec Ideal S50000x128 .f32) (I : IVec S2x250000 32) (Em : FVec Ideal S250000x200 .f32)
    (St : FVec Ideal S250000x64 .f32) : FVec Ideal S250000x520 .f32 :=
  concatenate S250000x520 1
    [⟨S250000x128, endRows X I ![0, 0] slices_S2x250000_S1x250000_0_0⟩,
     ⟨S250000x128, endRows X I ![1, 0] slices_S2x250000_S1x250000_1_0⟩, ⟨S250000x200, Em⟩, ⟨S250000x64, St⟩]
    concatenates_S250000x128_S250000x128_S250000x200_S250000x64_S250000x520_d1

/-- The program's result: the read-out of two residual layers over the concatenated features. -/
def refTerm (X : FVec Ideal S50000x128 .f32) (I : IVec S2x250000 32) (Em : FVec Ideal S250000x200 .f32)
    (St : FVec Ideal S250000x64 .f32) (W1 : FVec Ideal S520x520 .f32) (b1 : FVec Ideal S520 .f32)
    (W2 : FVec Ideal S520x520 .f32) (b2 : FVec Ideal S520 .f32) (Wo : FVec Ideal S520x8 .f32)
    (bo : FVec Ideal S8 .f32) : FVec Ideal S250000x8 .f32 :=
  addf (Host.dotGeneral dot_S250000x520_S520x8_S250000x8_1_0_0_1_n_n none
      (layerR (layerR (catR X I Em St) W1 b1) W2 b2) Wo)
    (broadcastInDim S250000x8 ![0, 1] bcast_S1x8_S250000x8_0_1 (broadcastInDim S1x8 ![1] bcast_S8_S1x8_1 bo))

end Cert.ReferenceIdeal.EdgeRun

end
-- ==== Proof.RefRun.lean ====
/-
  The reference program's run.

  @main is a straight line of whole-array operations; its two calls of @elu are the callee's operations at the call
  site over that call's own buffers (each call of @elu in turn holding its two selections' operations). Listed in
  order they are sixty-seven operations: thirty-seven of @main's own and fifteen for each call. Running them from
  any memory, every execution ends with the result buffer holding the composed whole-array term of the ten arguments
  (`refTerm`) and the arguments unchanged.
-/
import proofs.«422782_j68839735820406_3_alg».proof.Proof.Gen.ReferenceIdeal
import proofs.«422782_j68839735820406_3_alg».proof.Proof.RefTerm
import Idealize.ShloMosaic.Lib.StableHlo.Run

noncomputable section

namespace Cert.ReferenceIdeal.EdgeRun

open Cert.ReferenceIdeal Cert.ReferenceIdeal.Gen Idealize.ShloMosaic Idealize.ShloMosaic.TcCoe Idealize.SL.Sem Idealize.ShloMosaic.StableHlo

variable {F : FTy → Type} [FloatOps F]

/-- The sixty-seven operations, in order: the two index rows sliced, flattened and wrapped, the two gathers, the
    concatenation; the first layer's product, bias and sum, @elu's fifteen, the residual sum; the same for the second
    layer; the read-out's product, bias and sum. -/
abbrev ops : List (HloOp τ sig (Elt F)) :=
  [ unary main_arg1 main_v0 ((extractStridedSlice S1x250000 ![0, 0] · slices_S2x250000_S1x250000_0_0) : (⟨S2x250000, .i32⟩ : BufTy).Contents (Elt F) → (⟨S1x250000, .i32⟩ : BufTy).Contents (Elt F)),
    reshape main_v0 main_v1 rfl shapeCasts_S1x250000_S250000,
    unary main_arg1 main_v2 ((extractStridedSlice S1x250000 ![1, 0] · slices_S2x250000_S1x250000_1_0) : (⟨S2x250000, .i32⟩ : BufTy).Contents (Elt F) → (⟨S1x250000, .i32⟩ : BufTy).Contents (Elt F)),
    reshape main_v2 main_v3 rfl shapeCasts_S1x250000_S250000,
    nullary main_c (constantI S_ 32 0#32),
    unary main_c main_v4 (broadcastInDim S250000 ![] bcast_S_S250000 : (⟨S_, .i32⟩ : BufTy).Contents (Elt F) → (⟨S250000, .i32⟩ : BufTy).Contents (Elt F)),
    binary main_v1 main_v4 main_v5 (cmpi .slt : (⟨S250000, .i32⟩ : BufTy).Contents (Elt F) → (⟨S250000, .i32⟩ : BufTy).Contents (Elt F) → (⟨S250000, .i1⟩ : BufTy).Contents (Elt F)),
    nullary main_c_0 (constantI S_ 32 50000#32),
    unary main_c_0 main_v6 (broadcastInDim S250000 ![] bcast_S_S250000 : (⟨S_, .i32⟩ : BufTy).Contents (Elt F) → (⟨S250000, .i32⟩ : BufTy).Contents (Elt F)),
    binary main_v1 main_v6 main_v7 (addi : (⟨S250000, .i32⟩ : BufTy).Contents (Elt F) → (⟨S250000, .i32⟩ : BufTy).Contents (Elt F) → (⟨S250000, .i32⟩ : BufTy).Contents (Elt F)),
    ternary main_v5 main_v7 main_v1 main_v8 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v8 main_v9 (broadcastInDim S250000x1 ![0] bcast_S250000_S250000x1_0 : (⟨S250000, .i32⟩ : BufTy).Contents (Elt F) → (⟨S250000x1, .i32⟩ : BufTy).Contents (Elt F)),
    binary main_arg0 main_v9 main_v10 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    nullary main_c_1 (constantI S_ 32 0#32),
    unary main_c_1 main_v11 (broadcastInDim S250000 ![] bcast_S_S250000 : (⟨S_, .i32⟩ : BufTy).Contents (Elt F) → (⟨S250000, .i32⟩ : BufTy).Contents (Elt F)),
    binary main_v3 main_v11 main_v12 (cmpi .slt : (⟨S250000, .i32⟩ : BufTy).Contents (Elt F) → (⟨S250000, .i32⟩ : BufTy).Contents (Elt F) → (⟨S250000, .i1⟩ : BufTy).Contents (Elt F)),
    nullary main_c_2 (constantI S_ 32 50000#32),
    unary main_c_2 main_v13 (broadcastInDim S250000 ![] bcast_S_S250000 : (⟨S_, .i32⟩ : BufTy).Contents (Elt F) → (⟨S250000, .i32⟩ : BufTy).Contents (Elt F)),
    binary main_v3 main_v13 main_v14 (addi : (⟨S250000, .i32⟩ : BufTy).Contents (Elt F) → (⟨S250000, .i32⟩ : BufTy).Contents (Elt F) → (⟨S250000, .i32⟩ : BufTy).Contents (Elt F)),
    ternary main_v12 main_v14 main_v3 main_v15 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v15 main_v16 (broadcastInDim S250000x1 ![0] bcast_S250000_S250000x1_0 : (⟨S250000, .i32⟩ : BufTy).Contents (Elt F) → (⟨S250000x1, .i32⟩ : BufTy).Contents (Elt F)),
    binary main_arg0 main_v16 main_v17 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    nary ![main_v10, main_v17, main_arg2, main_arg3] main_v18 (fun u => concatenate S250000x520 1 [⟨S250000x128, u 0⟩, ⟨S250000x128, u 1⟩, ⟨S250000x200, u 2⟩, ⟨S250000x64, u 3⟩] concatenates_S250000x128_S250000x128_S250000x200_S250000x64_S250000x520_d1),
    binary main_v18 main_arg4 main_v19 ((fun l r => Host.dotGeneral dot_S250000x520_S520x520_S250000x520_1_0_0_1_n_n none l r) : (⟨S250000x520, .f32⟩ : BufTy).Contents (Elt F) → (⟨S520x520, .f32⟩ : BufTy).Contents (Elt F) → (⟨S250000x520, .f32⟩ : BufTy).Contents (Elt F)),
    unary main_arg5 main_v20 (broadcastInDim S1x520 ![1] bcast_S520_S1x520_1 : (⟨S520, .f32⟩ : BufTy).Contents (Elt F) → (⟨S1x520, .f32⟩ : BufTy).Contents (Elt F)),
    unary main_v20 main_v21 (broadcastInDim S250000x520 ![0, 1] bcast_S1x520_S250000x520_0_1 : (⟨S1x520, .f32⟩ : BufTy).Contents (Elt F) → (⟨S250000x520, .f32⟩ : BufTy).Contents (Elt F)),
    binary main_v19 main_v21 main_v22 (addf : (⟨S250000x520, .f32⟩ : BufTy).Contents (Elt F) → (⟨S250000x520, .f32⟩ : BufTy).Contents (Elt F) → (⟨S250000x520, .f32⟩ : BufTy).Contents (Elt F)),
    TRef.nullary main_call0.cst (constant S_ .f32 0x00000000#32),
    TRef.unary main_call0.cst main_call0.v0 (broadcastInDim S250000x520 ![] bcast_S_S250000x520),
    TRef.binary (.of main_v22) main_call0.v0 main_call0.v1 (cmpf .ogt),
    TRef.nullary main_call0.cst_0 (constant S_ .f32 0x00000000#32),
    TRef.unary main_call0.cst_0 main_call0.v2 (broadcastInDim S250000x520 ![] bcast_S_S250000x520),
    TRef.binary (.of main_v22) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S250000x520 ![] bcast_S_S250000x520),
    TRef.ternary main_call0.v3 main_call0.call0.v1 (.of main_v22) main_call0.call0.v2 select,
    TRef.unary main_call0.call0.v2 main_call0.v5 Host.expm1,
    TRef.nullary main_call0.cst_2 (constant S_ .f32 0x3F800000#32),
    TRef.unary main_call0.cst_2 main_call0.v6 (broadcastInDim S250000x520 ![] bcast_S_S250000x520),
    TRef.binary main_call0.v6 main_call0.v5 main_call0.v7 mulf,
    TRef.ternary main_call0.v1 (.of main_v22) main_call0.v7 main_call0.call1.v0 select,
    binary main_v23 main_v18 main_v24 (addf : (⟨S250000x520, .f32⟩ : BufTy).Contents (Elt F) → (⟨S250000x520, .f32⟩ : BufTy).Contents (Elt F) → (⟨S250000x520, .f32⟩ : BufTy).Contents (Elt F)),
    binary main_v24 main_arg6 main_v25 ((fun l r => Host.dotGeneral dot_S250000x520_S520x520_S250000x520_1_0_0_1_n_n none l r) : (⟨S250000x520, .f32⟩ : BufTy).Contents (Elt F) → (⟨S520x520, .f32⟩ : BufTy).Contents (Elt F) → (⟨S250000x520, .f32⟩ : BufTy).Contents (Elt F)),
    unary main_arg7 main_v26 (broadcastInDim S1x520 ![1] bcast_S520_S1x520_1 : (⟨S520, .f32⟩ : BufTy).Contents (Elt F) → (⟨S1x520, .f32⟩ : BufTy).Contents (Elt F)),
    unary main_v26 main_v27 (broadcastInDim S250000x520 ![0, 1] bcast_S1x520_S250000x520_0_1 : (⟨S1x520, .f32⟩ : BufTy).Contents (Elt F) → (⟨S250000x520, .f32⟩ : BufTy).Contents (Elt F)),
    binary main_v25 main_v27 main_v28 (addf : (⟨S250000x520, .f32⟩ : BufTy).Contents (Elt F) → (⟨S250000x520, .f32⟩ : BufTy).Contents (Elt F) → (⟨S250000x520, .f32⟩ : BufTy).Contents (Elt F)),
    TRef.nullary main_call1.cst (constant S_ .f32 0x00000000#32),
    TRef.unary main_call1.cst main_call1.v0 (broadcastInDim S250000x520 ![] bcast_S_S250000x520),
    TRef.binary (.of main_v28) main_call1.v0 main_call1.v1 (cmpf .ogt),
    TRef.nullary main_call1.cst_0 (constant S_ .f32 0x00000000#32),
    TRef.unary main_call1.cst_0 main_call1.v2 (broadcastInDim S250000x520 ![] bcast_S_S250000x520),
    TRef.binary (.of main_v28) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S250000x520 ![] bcast_S_S250000x520),
    TRef.ternary main_call1.v3 main_call1.call0.v1 (.of main_v28) main_call1.call0.v2 select,
    TRef.unary main_call1.call0.v2 main_call1.v5 Host.expm1,
    TRef.nullary main_call1.cst_2 (constant S_ .f32 0x3F800000#32),
    TRef.unary main_call1.cst_2 main_call1.v6 (broadcastInDim S250000x520 ![] bcast_S_S250000x520),
    TRef.binary main_call1.v6 main_call1.v5 main_call1.v7 mulf,
    TRef.ternary main_call1.v1 (.of main_v28) main_call1.v7 main_call1.call1.v0 select,
    binary main_v29 main_v24 main_v30 (addf : (⟨S250000x520, .f32⟩ : BufTy).Contents (Elt F) → (⟨S250000x520, .f32⟩ : BufTy).Contents (Elt F) → (⟨S250000x520, .f32⟩ : BufTy).Contents (Elt F)),
    binary main_v30 main_arg8 main_v31 ((fun l r => Host.dotGeneral dot_S250000x520_S520x8_S250000x8_1_0_0_1_n_n none l r) : (⟨S250000x520, .f32⟩ : BufTy).Contents (Elt F) → (⟨S520x8, .f32⟩ : BufTy).Contents (Elt F) → (⟨S250000x8, .f32⟩ : BufTy).Contents (Elt F)),
    unary main_arg9 main_v32 (broadcastInDim S1x8 ![1] bcast_S8_S1x8_1 : (⟨S8, .f32⟩ : BufTy).Contents (Elt F) → (⟨S1x8, .f32⟩ : BufTy).Contents (Elt F)),
    unary main_v32 main_v33 (broadcastInDim S250000x8 ![0, 1] bcast_S1x8_S250000x8_0_1 : (⟨S1x8, .f32⟩ : BufTy).Contents (Elt F) → (⟨S250000x8, .f32⟩ : BufTy).Contents (Elt F)),
    binary main_v31 main_v33 main_v34 (addf : (⟨S250000x8, .f32⟩ : BufTy).Contents (Elt F) → (⟨S250000x8, .f32⟩ : BufTy).Contents (Elt F) → (⟨S250000x8, .f32⟩ : BufTy).Contents (Elt F)) ]

set_option maxRecDepth 8192 in
/-- @main is that straight line: the callees' definitions unfold at their calls and the records at their fields, and
    sequencing a step before a continuation is by definition the step continued by it, so both sides compute to one
    chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., binary_bufs_sub .., unary_bufs_sub .., unary_bufs_sub .., binary_bufs_sub ..⟩

attribute [local irreducible] Host.gather concatenate in
set_option maxRecDepth 16384 in
set_option maxHeartbeats 1600000 in
/-- The fold at the result buffer is `refTerm` by computation: the fold unrolled, each operation's result decides whether
    the buffer read is the one it writes, and the typed references' transports are the identity at these literal
    references. The gather and the concatenation are kept folded meanwhile: the equation never looks inside them. -/
theorem out_eq (V : Valuation τ sig (Elt Ideal)) :
    after ops V (main_v34 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp only [after_cons, after_nil]
  rfl

/-! No operation writes an argument's buffer: each keeps its launch contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

/-- From any memory with zero counters, every weakly fair execution of @main terminates with the result buffer at
    `refTerm` of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v34).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.EdgeRun

end
-- ==== Proof.RefDots.lean ====
/-
  The reference's two matrix products read at an entry. Each contracts the left operand's column axis against the
  right operand's row axis, so the entry at (e, j) is the sum over the 520 shared positions k of the left operand at
  (e, k) times the right operand at (k, j).
-/
import proofs.«422782_j68839735820406_3_alg».proof.ReferenceIdeal
import Idealize.ShloMosaic.PureOps.Ideal.Laws
import Idealize.ShloMosaic.Lib.ValueIdx

noncomputable section

namespace Cert.ReferenceIdeal.EdgeRun

open Cert.ReferenceIdeal Idealize.ShloMosaic Idealize.ShloMosaic.ValueIdx

variable [Facts₀]

/-! ## The 520 × 520 product -/

theorem lhs_d520_0 (i : S250000x520.Idx) (q : dot_S250000x520_S520x520_S250000x520_1_0_0_1_n_n.contr.Idx) :
    (dot_S250000x520_S520x520_S250000x520_1_0_0_1_n_n.lhsIdx i q 0).val = (i 0).val := by
  unfold DotDims.lhsIdx
  rw [dif_neg (show ¬(0 : Fin S250000x520.rank) ∈ dot_S250000x520_S520x520_S250000x520_1_0_0_1_n_n.lhsBatch from List.not_mem_nil),
    dif_pos (show (0 : Fin S250000x520.rank) ∈ dot_S250000x520_S520x520_S250000x520_1_0_0_1_n_n.lhsNonContracting from List.mem_singleton.mpr rfl)]
  rfl

theorem lhs_d520_1 (i : S250000x520.Idx) (q : dot_S250000x520_S520x520_S250000x520_1_0_0_1_n_n.contr.Idx) :
    (dot_S250000x520_S520x520_S250000x520_1_0_0_1_n_n.lhsIdx i q 1).val = (q ⟨0, Nat.one_pos⟩).val :=
  dot_S250000x520_S520x520_S250000x520_1_0_0_1_n_n.lhsIdx_val_of_single rfl i q

theorem rhs_d520_0 (i : S250000x520.Idx) (q : dot_S250000x520_S520x520_S250000x520_1_0_0_1_n_n.contr.Idx) :
    (dot_S250000x520_S520x520_S250000x520_1_0_0_1_n_n.rhsIdx i q 0).val = (q ⟨0, Nat.one_pos⟩).val :=
  dot_S250000x520_S520x520_S250000x520_1_0_0_1_n_n.rhsIdx_val_of_single rfl i q

theorem rhs_d520_1 (i : S250000x520.Idx) (q : dot_S250000x520_S520x520_S250000x520_1_0_0_1_n_n.contr.Idx) :
    (dot_S250000x520_S520x520_S250000x520_1_0_0_1_n_n.rhsIdx i q 1).val = (i 1).val := by
  unfold DotDims.rhsIdx
  rw [dif_neg (show ¬(1 : Fin S520x520.rank) ∈ dot_S250000x520_S520x520_S250000x520_1_0_0_1_n_n.rhsBatch from List.not_mem_nil),
    dif_pos (show (1 : Fin S520x520.rank) ∈ dot_S250000x520_S520x520_S250000x520_1_0_0_1_n_n.rhsNonContracting from List.mem_singleton.mpr rfl)]
  rfl

/-- Entry (e, j) of the 520 × 520 product: the sum over k of left (e, k) times right (k, j). -/
theorem dot520_sum (l : S250000x520.Idx → EReal) (w : S520x520.Idx → EReal) (e : Fin 250000) (j : Fin 520) :
    (∑ q : dot_S250000x520_S520x520_S250000x520_1_0_0_1_n_n.contr.Idx,
        l (dot_S250000x520_S520x520_S250000x520_1_0_0_1_n_n.lhsIdx (ix2 e j) q)
          * w (dot_S250000x520_S520x520_S250000x520_1_0_0_1_n_n.rhsIdx (ix2 e j) q))
      = ∑ k : Fin 520, l (ix2 e k) * w (ix2 k j) := by
  rw [← Equiv.sum_comp (ValueIdx.contrEquiv1 dot_S250000x520_S520x520_S250000x520_1_0_0_1_n_n 520 rfl rfl).symm]
  refine Finset.sum_congr rfl fun k _ => ?_
  have hk := ValueIdx.contrEquiv1_symm_val dot_S250000x520_S520x520_S250000x520_1_0_0_1_n_n 520 rfl rfl k
  have el : dot_S250000x520_S520x520_S250000x520_1_0_0_1_n_n.lhsIdx (ix2 e j)
      ((ValueIdx.contrEquiv1 dot_S250000x520_S520x520_S250000x520_1_0_0_1_n_n 520 rfl rfl).symm k) = ix2 e k :=
    funext fun a => Fin.ext (by
      match a with
      | ⟨0, _⟩ => exact lhs_d520_0 _ _
      | ⟨1, _⟩ => exact (lhs_d520_1 _ _).trans hk)
  have er : dot_S250000x520_S520x520_S250000x520_1_0_0_1_n_n.rhsIdx (ix2 e j)
      ((ValueIdx.contrEquiv1 dot_S250000x520_S520x520_S250000x520_1_0_0_1_n_n 520 rfl rfl).symm k) = ix2 k j :=
    funext fun a => Fin.ext (by
      match a with
      | ⟨0, _⟩ => exact (rhs_d520_0 _ _).trans hk
      | ⟨1, _⟩ => exact rhs_d520_1 _ _)
  rw [el, er]

/-- The reference's first and second products at entry (e, j). -/
theorem dot520_apply (l : FVec Ideal S250000x520 .f32) (w : FVec Ideal S520x520 .f32) (e : Fin 250000) (j : Fin 520) :
    Host.dotGeneral dot_S250000x520_S520x520_S250000x520_1_0_0_1_n_n none l w (ix2 e j)
      = ∑ k : Fin 520, l (ix2 e k) * w (ix2 k j) := by
  simp only [Host.dotGeneral]
  rw [Ideal.dotGeneral_apply]
  exact dot520_sum l w e j

/-! ## The 520 × 8 product -/

theorem lhs_d8_0 (i : S250000x8.Idx) (q : dot_S250000x520_S520x8_S250000x8_1_0_0_1_n_n.contr.Idx) :
    (dot_S250000x520_S520x8_S250000x8_1_0_0_1_n_n.lhsIdx i q 0).val = (i 0).val := by
  unfold DotDims.lhsIdx
  rw [dif_neg (show ¬(0 : Fin S250000x520.rank) ∈ dot_S250000x520_S520x8_S250000x8_1_0_0_1_n_n.lhsBatch from List.not_mem_nil),
    dif_pos (show (0 : Fin S250000x520.rank) ∈ dot_S250000x520_S520x8_S250000x8_1_0_0_1_n_n.lhsNonContracting from List.mem_singleton.mpr rfl)]
  rfl

theorem lhs_d8_1 (i : S250000x8.Idx) (q : dot_S250000x520_S520x8_S250000x8_1_0_0_1_n_n.contr.Idx) :
    (dot_S250000x520_S520x8_S250000x8_1_0_0_1_n_n.lhsIdx i q 1).val = (q ⟨0, Nat.one_pos⟩).val :=
  dot_S250000x520_S520x8_S250000x8_1_0_0_1_n_n.lhsIdx_val_of_single rfl i q

theorem rhs_d8_0 (i : S250000x8.Idx) (q : dot_S250000x520_S520x8_S250000x8_1_0_0_1_n_n.contr.Idx) :
    (dot_S250000x520_S520x8_S250000x8_1_0_0_1_n_n.rhsIdx i q 0).val = (q ⟨0, Nat.one_pos⟩).val :=
  dot_S250000x520_S520x8_S250000x8_1_0_0_1_n_n.rhsIdx_val_of_single rfl i q

theorem rhs_d8_1 (i : S250000x8.Idx) (q : dot_S250000x520_S520x8_S250000x8_1_0_0_1_n_n.contr.Idx) :
    (dot_S250000x520_S520x8_S250000x8_1_0_0_1_n_n.rhsIdx i q 1).val = (i 1).val := by
  unfold DotDims.rhsIdx
  rw [dif_neg (show ¬(1 : Fin S520x8.rank) ∈ dot_S250000x520_S520x8_S250000x8_1_0_0_1_n_n.rhsBatch from List.not_mem_nil),
    dif_pos (show (1 : Fin S520x8.rank) ∈ dot_S250000x520_S520x8_S250000x8_1_0_0_1_n_n.rhsNonContracting from List.mem_singleton.mpr rfl)]
  rfl

/-- Entry (e, j) of the 520 × 8 product: the sum over k of left (e, k) times right (k, j). -/
theorem dot8_sum (l : S250000x520.Idx → EReal) (w : S520x8.Idx → EReal) (e : Fin 250000) (j : Fin 8) :
    (∑ q : dot_S250000x520_S520x8_S250000x8_1_0_0_1_n_n.contr.Idx,
        l (dot_S250000x520_S520x8_S250000x8_1_0_0_1_n_n.lhsIdx (ix2 e j) q)
          * w (dot_S250000x520_S520x8_S250000x8_1_0_0_1_n_n.rhsIdx (ix2 e j) q))
      = ∑ k : Fin 520, l (ix2 e k) * w (ix2 k j) := by
  rw [← Equiv.sum_comp (ValueIdx.contrEquiv1 dot_S250000x520_S520x8_S250000x8_1_0_0_1_n_n 520 rfl rfl).symm]
  refine Finset.sum_congr rfl fun k _ => ?_
  have hk := ValueIdx.contrEquiv1_symm_val dot_S250000x520_S520x8_S250000x8_1_0_0_1_n_n 520 rfl rfl k
  have el : dot_S250000x520_S520x8_S250000x8_1_0_0_1_n_n.lhsIdx (ix2 e j)
      ((ValueIdx.contrEquiv1 dot_S250000x520_S520x8_S250000x8_1_0_0_1_n_n 520 rfl rfl).symm k) = ix2 e k :=
    funext fun a => Fin.ext (by
      match a with
      | ⟨0, _⟩ => exact lhs_d8_0 _ _
      | ⟨1, _⟩ => exact (lhs_d8_1 _ _).trans hk)
  have er : dot_S250000x520_S520x8_S250000x8_1_0_0_1_n_n.rhsIdx (ix2 e j)
      ((ValueIdx.contrEquiv1 dot_S250000x520_S520x8_S250000x8_1_0_0_1_n_n 520 rfl rfl).symm k) = ix2 k j :=
    funext fun a => Fin.ext (by
      match a with
      | ⟨0, _⟩ => exact (rhs_d8_0 _ _).trans hk
      | ⟨1, _⟩ => exact rhs_d8_1 _ _)
  rw [el, er]

/-- The reference's read-out product at entry (e, j). -/
theorem dot8_apply (l : FVec Ideal S250000x520 .f32) (w : FVec Ideal S520x8 .f32) (e : Fin 250000) (j : Fin 8) :
    Host.dotGeneral dot_S250000x520_S520x8_S250000x8_1_0_0_1_n_n none l w (ix2 e j)
      = ∑ k : Fin 520, l (ix2 e k) * w (ix2 k j) := by
  simp only [Host.dotGeneral]
  rw [Ideal.dotGeneral_apply]
  exact dot8_sum l w e j

end Cert.ReferenceIdeal.EdgeRun

end
-- ==== Proof.RefValue.lean ====
/-
  The reference's result term is the shared specification: read at edge e and output column j, the term is the
  read-out of two residual layers over the four concatenated feature groups of edge e.

  Each piece is read at an entry. A row of the index table sliced out and flattened reads the table's word; the wrap
  of negative words is the specification's wrap on each word; the gather of rows at a one-column matrix of start
  indices reads the node table at the clamped word, which is the specification's node. The concatenation read at
  column k is the group that holds k. A bias laid out as one row and broadcast down the rows reads the bias at the
  column. ELU in the reference's spelling is the specification's ELU at every entry, and each matrix product at an
  entry is the sum over the 520 shared positions.
-/
import proofs.«422782_j68839735820406_3_alg».proof.Proof.Spec
import proofs.«422782_j68839735820406_3_alg».proof.Proof.LibGatherRows
import proofs.«422782_j68839735820406_3_alg».proof.Proof.RefTerm
import proofs.«422782_j68839735820406_3_alg».proof.Proof.RefDots
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StableHlo.Predicate
import Idealize.ShloMosaic.Lib.KernelVsHost

noncomputable section

namespace Cert.ReferenceIdeal.EdgeRun

open Cert.ReferenceIdeal Idealize.ShloMosaic Idealize.ShloMosaic.ValueIdx Cert.EdgeMlp

/-! ## Index words -/

/-- The wrap of negative words, at a position, is the specification's wrap of the word there. -/
theorem wrapSel_apply (h0 : S_.BroadcastsInDim S250000 (![] : Fin 0 → Fin S250000.rank)) (w : IVec S250000 32)
    (i : S250000.Idx) :
    select (cmpi .slt w (broadcastInDim S250000 ![] h0 (constantI S_ 32 0#32)))
        (addi w (broadcastInDim S250000 ![] h0 (constantI S_ 32 50000#32))) w i
      = wrap (w i) := rfl

/-- Row r of the index table, sliced out and flattened, reads the table's word at (r, p). -/
theorem row_apply (I : IVec S2x250000 32) (r : Fin 2) (hs : S2x250000.Slices ![r.val, 0] S1x250000)
    (hc : S1x250000.ShapeCasts S250000) (p : Fin 250000) :
    shapeCast S250000 (extractStridedSlice S1x250000 ![r.val, 0] I hs) hc (ix1 p) = I (ix2 r p) := by
  rw [shapeCast_dropUnit_apply ![250000] _ hc (ix1 p)]
  refine extractStridedSlice_apply _ I hs _ (ix2 r p) fun a => ?_
  match a with
  | ⟨0, _⟩ => rfl
  | ⟨1, _⟩ => exact (Nat.zero_add _).symm

/-! ## The bias -/

/-- A vector laid out as one row and broadcast down the rows reads, at (e, k), the vector at k. -/
theorem bias_apply {α : Type} {m n : Nat} (h₁ : (⟨1, ![n]⟩ : Shape).BroadcastsInDim ⟨2, ![1, n]⟩ ![1])
    (h₂ : (⟨2, ![1, n]⟩ : Shape).BroadcastsInDim ⟨2, ![m, n]⟩ ![0, 1]) (b : (⟨1, ![n]⟩ : Shape).Idx → α)
    (e : Fin m) (k : Fin n) :
    broadcastInDim ⟨2, ![m, n]⟩ ![0, 1] h₂ (broadcastInDim ⟨2, ![1, n]⟩ ![1] h₁ b) (ix2 e k) = b (ix1 k) := by
  rw [broadcastInDim_oneRow_apply h₂ _ e k]
  refine broadcastInDim_apply ![1] h₁ b (ix2 (0 : Fin 1) k) (ix1 k) fun a => ?_
  match a with
  | ⟨0, _⟩ =>
    show k.val = if n = 1 then 0 else k.val
    split_ifs with hn
    · have := k.isLt; omega
    · rfl

/-! ## ELU -/

/-- ELU in the reference's spelling, at an entry, is the specification's ELU of the entry. -/
theorem eluSel_apply (h0 : S_.BroadcastsInDim S250000x520 (![] : Fin 0 → Fin S250000x520.rank))
    (x : FVec Ideal S250000x520 .f32) (i : S250000x520.Idx) :
    select (cmpf .ogt x (broadcastInDim S250000x520 ![] h0 (constant (F := Ideal) S_ .f32 0x00000000#32))) x
        (mulf (broadcastInDim S250000x520 ![] h0 (constant (F := Ideal) S_ .f32 0x3F800000#32))
          (Host.expm1 (select (cmpf .ogt x (broadcastInDim S250000x520 ![] h0 (constant (F := Ideal) S_ .f32 0x00000000#32)))
            (broadcastInDim S250000x520 ![] h0 (id (constant (F := Ideal) S_ .f32 0x00000000#32))) x))) i
      = elu (x i) := by
  have hz : ∀ j : S250000x520.Idx,
      broadcastInDim S250000x520 ![] h0 (constant (F := Ideal) S_ .f32 0x00000000#32) j = (0 : EReal) :=
    fun _ => Ideal.ofBits_zero_f32
  have ho : ∀ j : S250000x520.Idx,
      broadcastInDim S250000x520 ![] h0 (constant (F := Ideal) S_ .f32 0x3F800000#32) j = (1 : EReal) :=
    fun _ => Ideal.ofBits_one_f32
  rw [← elu_ref (x i)]
  show Scalar.select (Ideal.cmp .ogt (x i) _) (x i) (_ * (Ideal.exp (Scalar.select (Ideal.cmp .ogt (x i) _) _ (x i)) - 1)) = _
  have hz' : broadcastInDim S250000x520 ![] h0 (id (constant (F := Ideal) S_ .f32 0x00000000#32)) i = (0 : EReal) :=
    Ideal.ofBits_zero_f32
  rw [hz i, ho i, hz']
/-! ## The concatenation -/

/-- The four groups concatenated along the feature axis read, at (e, k), the group whose span holds k. -/
theorem cat_apply (hc : Shape.Concatenates [S250000x128, S250000x128, S250000x200, S250000x64] S250000x520 1)
    (a b : FVec Ideal S250000x128 .f32) (c : FVec Ideal S250000x200 .f32) (d : FVec Ideal S250000x64 .f32)
    (e : Fin 250000) (k : Fin 520) :
    concatenate S250000x520 1 [⟨S250000x128, a⟩, ⟨S250000x128, b⟩, ⟨S250000x200, c⟩, ⟨S250000x64, d⟩] hc (ix2 e k)
      = cat4 (fun k => a (ix2 e k)) (fun k => b (ix2 e k)) (fun k => c (ix2 e k)) (fun k => d (ix2 e k)) k := by
  unfold cat4
  split_ifs with h₁ h₂ h₃
  · refine concatenate_apply_piece 1 [⟨S250000x128, a⟩, ⟨S250000x128, b⟩, ⟨S250000x200, c⟩, ⟨S250000x64, d⟩] hc
      (ix2 e k) 0 (by simp) S250000x128 a rfl rfl 0 rfl
      (ix2 e (⟨k.val, h₁⟩ : Fin 128)) (fun q hq => ?_) ?_
    · match q with
      | ⟨0, _⟩ => rfl
      | ⟨1, _⟩ => exact absurd rfl hq
    · exact Nat.zero_add _
  · refine concatenate_apply_piece 1 [⟨S250000x128, a⟩, ⟨S250000x128, b⟩, ⟨S250000x200, c⟩, ⟨S250000x64, d⟩] hc
      (ix2 e k) 1 (by simp) S250000x128 b rfl rfl 128 rfl
      (ix2 e (⟨k.val - 128, by omega⟩ : Fin 128)) (fun q hq => ?_) ?_
    · match q with
      | ⟨0, _⟩ => rfl
      | ⟨1, _⟩ => exact absurd rfl hq
    · show 128 + (k.val - 128) = k.val
      omega
  · refine concatenate_apply_piece 1 [⟨S250000x128, a⟩, ⟨S250000x128, b⟩, ⟨S250000x200, c⟩, ⟨S250000x64, d⟩] hc
      (ix2 e k) 2 (by simp) S250000x200 c rfl rfl 256 rfl
      (ix2 e (⟨k.val - 256, by omega⟩ : Fin 200)) (fun q hq => ?_) ?_
    · match q with
      | ⟨0, _⟩ => rfl
      | ⟨1, _⟩ => exact absurd rfl hq
    · show 256 + (k.val - 256) = k.val
      omega
  · refine concatenate_apply_piece 1 [⟨S250000x128, a⟩, ⟨S250000x128, b⟩, ⟨S250000x200, c⟩, ⟨S250000x64, d⟩] hc
      (ix2 e k) 3 (by simp) S250000x64 d rfl rfl 456 rfl
      (ix2 e (⟨k.val - 456, by omega⟩ : Fin 64)) (fun q hq => ?_) ?_
    · match q with
      | ⟨0, _⟩ => rfl
      | ⟨1, _⟩ => exact absurd rfl hq
    · show 456 + (k.val - 456) = k.val
      omega

section Records

variable [Facts₀]

/-! ## One endpoint's rows -/

/-- The gather of the node table's rows at a column of index words reads, at (e, k), the table at column k of the row
    the word at e names: the word read signed and clamped into the table. -/
theorem rowsAt_apply (hb : S250000.BroadcastsInDim S250000x1 (![0] : Fin 1 → Fin S250000x1.rank))
    (X : FVec Ideal S50000x128 .f32) (v : IVec S250000 32) (e : Fin 250000) (k : Fin 128) :
    Host.gather gather_S50000x128_S250000x1_S250000x128_1_0_n_n_0_1_1128 X (broadcastInDim S250000x1 ![0] hb v) (ix2 e k)
      = X (ix2 (⟨min (v (ix1 e)).toInt.toNat 49999, by omega⟩ : Fin 50000) k) := by
  have hcol : broadcastInDim S250000x1 ![0] hb v (ix2 e (0 : Fin 1)) = v (ix1 e) := by
    refine broadcastInDim_apply ![0] hb v (ix2 e (0 : Fin 1)) (ix1 e) fun a => ?_
    match a with
    | ⟨0, _⟩ =>
      show e.val = if (250000 : ℕ) = 1 then 0 else e.val
      rw [if_neg (by decide)]
  refine (gather_rows gather_S50000x128_S250000x1_S250000x128_1_0_n_n_0_1_1128 rfl rfl rfl rfl rfl X _ e k
    (by decide)).trans ?_
  exact congrArg (fun r : Fin 50000 => X (ix2 r k)) (Fin.ext (by
    show min _ _ = min _ _
    rw [hcol]))

end Records

/-! ## The named pieces of the result term -/

open Cert.ReferenceIdeal.Gen

/-- One endpoint's gathered rows read, at (e, k), the node table at column k of the node edge e's word names. -/
theorem endRows_apply (X : FVec Ideal S50000x128 .f32) (I : IVec S2x250000 32) (r : Fin 2)
    (hs : S2x250000.Slices ![r.val, 0] S1x250000) (e : Fin 250000) (k : Fin 128) :
    endRows X I ![r.val, 0] hs (ix2 e k) = X (ix2 (node (I (ix2 r e))) k) := by
  unfold endRows
  rw [rowsAt_apply]
  have hw : wrapV (idxRow I ![r.val, 0] hs) (ix1 e) = wrap (I (ix2 r e)) := by
    unfold wrapV idxRow
    rw [wrapSel_apply, row_apply]
  exact congrArg (fun n : Fin 50000 => X (ix2 n k)) (Fin.ext (by
    show min _ _ = min _ _
    rw [hw]))

/-- The concatenated features of edge e. -/
theorem catR_row (X : FVec Ideal S50000x128 .f32) (I : IVec S2x250000 32) (Em : FVec Ideal S250000x200 .f32)
    (St : FVec Ideal S250000x64 .f32) (e : Fin 250000) :
    (fun k => catR X I Em St (ix2 e k))
      = cat4 (fun k => X (ix2 (node (I (ix2 (0 : Fin 2) e))) k)) (fun k => X (ix2 (node (I (ix2 (1 : Fin 2) e))) k))
          (fun k => Em (ix2 e k)) (fun k => St (ix2 e k)) := by
  funext k
  unfold catR
  refine (cat_apply _ _ _ _ _ e k).trans ?_
  have ha : (fun k' => endRows X I ![0, 0] slices_S2x250000_S1x250000_0_0 (ix2 e k'))
      = fun k' => X (ix2 (node (I (ix2 (0 : Fin 2) e))) k') :=
    funext fun k' => endRows_apply X I 0 slices_S2x250000_S1x250000_0_0 e k'
  have hb : (fun k' => endRows X I ![1, 0] slices_S2x250000_S1x250000_1_0 (ix2 e k'))
      = fun k' => X (ix2 (node (I (ix2 (1 : Fin 2) e))) k') :=
    funext fun k' => endRows_apply X I 1 slices_S2x250000_S1x250000_1_0 e k'
  rw [ha, hb]

/-- The reference's ELU at an entry. -/
theorem eluR_apply (x : FVec Ideal S250000x520 .f32) (i : S250000x520.Idx) : eluR x i = elu (x i) := by
  unfold eluR zeros ones
  exact eluSel_apply _ x i

/-- A residual layer on the whole array, on edge e's row, is the specification's layer on that row. -/
theorem layerR_row (h : FVec Ideal S250000x520 .f32) (W : FVec Ideal S520x520 .f32) (b : FVec Ideal S520 .f32)
    (e : Fin 250000) :
    (fun k => layerR h W b (ix2 e k)) = hid (fun k => h (ix2 e k)) (mat W) (vec b) := by
  funext k
  unfold layerR
  show eluR _ (ix2 e k) + h (ix2 e k) = _
  rw [eluR_apply]
  have e1 := dot520_apply h W e k
  have e2 := bias_apply bcast_S520_S1x520_1 bcast_S1x520_S250000x520_0_1 b e k
  show elu (_ + _) + _ = _
  rw [e1, e2]
  rfl

/-! ## The result -/

/-- The reference's result term is the specification's whole result. -/
theorem refTerm_eq (X : FVec Ideal S50000x128 .f32) (I : IVec S2x250000 32) (Em : FVec Ideal S250000x200 .f32)
    (St : FVec Ideal S250000x64 .f32) (W1 : FVec Ideal S520x520 .f32) (b1 : FVec Ideal S520 .f32)
    (W2 : FVec Ideal S520x520 .f32) (b2 : FVec Ideal S520 .f32) (Wo : FVec Ideal S520x8 .f32)
    (bo : FVec Ideal S8 .f32) :
    refTerm X I Em St W1 b1 W2 b2 Wo bo = Cert.EdgeMlp.G X I Em St W1 b1 W2 b2 Wo bo := by
  funext i
  obtain ⟨e, j, rfl⟩ : ∃ (e : Fin 250000) (j : Fin 8), i = ix2 e j := ⟨i 0, i 1, eq_ix2 i⟩
  show _ = Gat X I Em St W1 b1 W2 b2 Wo bo e j
  unfold Gat
  rw [← net_whole]
  have hrow : (fun k => layerR (layerR (catR X I Em St) W1 b1) W2 b2 (ix2 e k))
      = hid (hid (cat4 (fun k => X (ix2 (node (I (ix2 (0 : Fin 2) e))) k))
          (fun k => X (ix2 (node (I (ix2 (1 : Fin 2) e))) k)) (fun k => Em (ix2 e k)) (fun k => St (ix2 e k)))
          (mat W1) (vec b1)) (mat W2) (vec b2) := by
    rw [layerR_row, layerR_row, catR_row]
  rw [← hrow]
  unfold refTerm
  have e1 := dot8_apply (layerR (layerR (catR X I Em St) W1 b1) W2 b2) Wo e j
  have e2 := bias_apply bcast_S8_S1x8_1 bcast_S1x8_S250000x8_0_1 bo e j
  show _ + _ = _
  rw [e1, e2]
  rfl

end Cert.ReferenceIdeal.EdgeRun

end
-- ==== Proof.lean ====
/-
  An edge-property network on a graph: for each of 250000 edges, the features of its two end nodes (gathered from a
  table of 50000 nodes by the two rows of an integer index array), its embedding and its static features are laid side
  by side (520 values), passed through two residual layers h ↦ elu (h · W + b) + h and read out to 8 values.

  The kernel gathers both end nodes' rows on the host with one gather over the concatenated index words, then runs the
  dense layers in a pipelined region, 2000 edges at a point, with the first layer's product taken group by group
  against the matching rows of the first weight matrix; the reference gathers each end separately and multiplies the
  concatenated row by the whole matrix. On the extended reals the two agree entry by entry: a finite sum splits along
  the feature groups by commutativity and associativity of addition alone; a change of float format is the identity;
  the two spellings of ELU are one function; and both programs wrap a negative index word and clamp it into the table.
  They differ only where an index word falls outside the table (the kernel's gather then fills the row with a fixed
  value, the reference's reads the clamped row), which the precondition excludes: every index word is at least 0 and
  below 50000. Finiteness of the float inputs is not used.

  The three frames: the two kernels' are the generated frame certificates; the reference's is its run with the result
  dropped. The idealization rewrote nothing, so `preserves` is trivial.
-/
import proofs.«422782_j68839735820406_3_alg».proof.Defs
import proofs.«422782_j68839735820406_3_alg».proof.Proof.Gen.Kernel
import proofs.«422782_j68839735820406_3_alg».proof.Proof.Gen.Kernel.Skeleton
import proofs.«422782_j68839735820406_3_alg».proof.Proof.Gen.Kernel.Launch
import proofs.«422782_j68839735820406_3_alg».proof.Proof.Gen.Kernel.Points
import proofs.«422782_j68839735820406_3_alg».proof.Proof.Gen.Kernel.Frame
import proofs.«422782_j68839735820406_3_alg».proof.Proof.Gen.KernelIdeal
import proofs.«422782_j68839735820406_3_alg».proof.Proof.Gen.KernelIdeal.Skeleton
import proofs.«422782_j68839735820406_3_alg».proof.Proof.Gen.KernelIdeal.Launch
import proofs.«422782_j68839735820406_3_alg».proof.Proof.Gen.KernelIdeal.Points
import proofs.«422782_j68839735820406_3_alg».proof.Proof.Gen.KernelIdeal.Frame
import proofs.«422782_j68839735820406_3_alg».proof.Proof.Gen.KernelIdeal.Value
import proofs.«422782_j68839735820406_3_alg».proof.Proof.Gen.ReferenceIdeal
import proofs.«422782_j68839735820406_3_alg».proof.Proof.Gen.Pre_finite_inputs
import proofs.«422782_j68839735820406_3_alg».proof.Proof.KerFinal
import proofs.«422782_j68839735820406_3_alg».proof.Proof.PreRange
import proofs.«422782_j68839735820406_3_alg».proof.Proof.RefRun
import proofs.«422782_j68839735820406_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.EdgeRun.run m ρ)

/-- Both programs end with the result array at the one function `G` of the argument arrays: the kernel's by the blocks
    its grid points write back, under the precondition's range of the index words; the reference's by reading its
    operations at an index. -/
theorem algebraic : Cert.algebraic_KernelIdeal_ReferenceIdeal := by
  intro m ρ m' ρ' hpre hagree
  refine ⟨fun c => Cert.EdgeMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Value.run_blocks m ρ)
    exact Cert.KernelIdeal.EdgeValue.final m c
      (Cert.Pre_finite_inputs.EdgeRange.inTable_of_pre _ _ _ _ _ _ _ _ _ _ (hpre c))
  · refine (θ_run Cert.ReferenceIdeal.defs _ _).mono (fun r h c => ⟨(h c).1.trans ?_, (h c).2⟩)
      (Cert.ReferenceIdeal.EdgeRun.run m' ρ')
    obtain ⟨a0, a1, a2, a3, a4, a5, a6, a7, a8, a9⟩ := hagree c
    rw [Cert.ReferenceIdeal.EdgeRun.refTerm_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
